-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8x131072x128 : Shape := ⟨4, ![1, 8, 131072, 128]⟩
abbrev S1x256x512x1 : Shape := ⟨4, ![1, 256, 512, 1]⟩
abbrev S_ : Shape := ⟨0, ![]⟩

class Facts : Prop where
  bcast_S_S1x8x131072x128 : S_.BroadcastsInDim S1x8x131072x128 (![] : Fin 0 → Fin S1x8x131072x128.rank)
  reducesTo_S1x8x131072x128_S_d0_1_2_3 : S1x8x131072x128.ReducesTo [0, 1, 2, 3] S_
  h_S_ : 0 < S_.numel
  bcast_S_S1x256x512x1 : S_.BroadcastsInDim S1x256x512x1 (![] : Fin 0 → Fin S1x256x512x1.rank)
  reducesTo_S1x256x512x1_S_d0_1_2_3 : S1x256x512x1.ReducesTo [0, 1, 2, 3] S_

variable [Facts]

def fn {F : FTy → Type} [FloatOps F] (main_arg0 : FVec F S1x8x131072x128 .f32) (main_arg1 : FVec F S1x256x512x1 .f32) : IVec S_ 1 :=
  let main_v0 : FVec F S1x8x131072x128 .f32 := Host.absf main_arg0
  let main_cst : FVec F S_ .f32 := constant S_ .f32 0x7F800000#32
  let main_v1 : FVec F S1x8x131072x128 .f32 := broadcastInDim S1x8x131072x128 ![] bcast_S_S1x8x131072x128 main_cst
  let main_v2 : IVec S1x8x131072x128 1 := cmpf .olt main_v0 main_v1
  let main_c : IVec S_ 1 := constantI S_ 1 1#1
  let main_v3 : IVec S_ 1 := (fun x v => Host.reduce IntOp.andi x v reducesTo_S1x8x131072x128_S_d0_1_2_3 h_S_) main_v2 main_c
  let main_v4 : FVec F S1x256x512x1 .f32 := Host.absf main_arg1
  let main_cst_0 : FVec F S_ .f32 := constant S_ .f32 0x7F800000#32
  let main_v5 : FVec F S1x256x512x1 .f32 := broadcastInDim S1x256x512x1 ![] bcast_S_S1x256x512x1 main_cst_0
  let main_v6 : IVec S1x256x512x1 1 := cmpf .olt main_v4 main_v5
  let main_c_1 : IVec S_ 1 := constantI S_ 1 1#1
  let main_v7 : IVec S_ 1 := (fun x v => Host.reduce IntOp.andi x v reducesTo_S1x256x512x1_S_d0_1_2_3 h_S_) main_v6 main_c_1
  let main_v8 : IVec S_ 1 := andi main_v3 main_v7
  main_v8
-- ==== Kernel.lean ====
abbrev S1x8x131072x128 : Shape := ⟨4, ![1, 8, 131072, 128]⟩
abbrev S1x256x512x1 : Shape := ⟨4, ![1, 256, 512, 1]⟩
abbrev S1x256x512 : Shape := ⟨3, ![1, 256, 512]⟩
abbrev S_ : Shape := ⟨0, ![]⟩
abbrev S131072x1 : Shape := ⟨2, ![131072, 1]⟩
abbrev S8x131072 : Shape := ⟨2, ![8, 131072]⟩
abbrev S1x8x1024x128 : Shape := ⟨4, ![1, 8, 1024, 128]⟩
abbrev S1024x1 : Shape := ⟨2, ![1024, 1]⟩
abbrev S8x1024 : Shape := ⟨2, ![8, 1024]⟩
abbrev S8x1024x128 : Shape := ⟨3, ![8, 1024, 128]⟩
abbrev S1024x128 : Shape := ⟨2, ![1024, 128]⟩
abbrev S1x1024x128 : Shape := ⟨3, ![1, 1024, 128]⟩
abbrev S1x8x256x512 : Shape := ⟨4, ![1, 8, 256, 512]⟩

abbrev nBuf : Space → Nat
  | .hbm => 21
  | .vmem => 12
  | .smem => 0
  | _ => 0

abbrev bufTy : (tb : Table) → Fin (tcTables nBuf tb) → BufTy
  | .hbm, ⟨0, _⟩ => ⟨S1x8x131072x128, .f32⟩
  | .hbm, ⟨1, _⟩ => ⟨S1x256x512x1, .f32⟩
  | .hbm, ⟨2, _⟩ => ⟨S1x256x512, .f32⟩
  | .hbm, ⟨3, _⟩ => ⟨S_, .f32⟩
  | .hbm, ⟨4, _⟩ => ⟨S1x256x512, .f32⟩
  | .hbm, ⟨5, _⟩ => ⟨S1x256x512, .f32⟩
  | .hbm, ⟨6, _⟩ => ⟨S1x256x512, .f32⟩
  | .hbm, ⟨7, _⟩ => ⟨S1x256x512, .f32⟩
  | .hbm, ⟨8, _⟩ => ⟨S1x256x512, .i32⟩
  | .hbm, ⟨9, _⟩ => ⟨S_, .i32⟩
  | .hbm, ⟨10, _⟩ => ⟨S1x256x512, .i32⟩
  | .hbm, ⟨11, _⟩ => ⟨S1x256x512, .i32⟩
  | .hbm, ⟨12, _⟩ => ⟨S_, .f32⟩
  | .hbm, ⟨13, _⟩ => ⟨S1x256x512, .f32⟩
  | .hbm, ⟨14, _⟩ => ⟨S1x256x512, .f32⟩
  | .hbm, ⟨15, _⟩ => ⟨S131072x1, .i32⟩
  | .hbm, ⟨16, _⟩ => ⟨S131072x1, .i32⟩
  | .hbm, ⟨17, _⟩ => ⟨S131072x1, .f32⟩
  | .hbm, ⟨18, _⟩ => ⟨S131072x1, .f32⟩
  | .hbm, ⟨19, _⟩ => ⟨S8x131072, .f32⟩
  | .hbm, ⟨20, _⟩ => ⟨S1x8x256x512, .f32⟩
  | .local _ .vmem, ⟨0, _⟩ => ⟨S1x8x1024x128, .f32⟩
  | .local _ .vmem, ⟨1, _⟩ => ⟨S1x8x1024x128, .f32⟩
  | .local _ .vmem, ⟨2, _⟩ => ⟨S1024x1, .i32⟩
  | .local _ .vmem, ⟨3, _⟩ => ⟨S1024x1, .i32⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S8x1024, .f32⟩
  | .local _ .vmem, ⟨11, _⟩ => ⟨S8x1024, .f32⟩
  | _, _ => ⟨S1x8x131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x256x512x1_S1x256x512 : S1x256x512x1.ShapeCasts S1x256x512
  bcast_S_S1x256x512 : S_.BroadcastsInDim S1x256x512 (![] : Fin 0 → Fin S1x256x512.rank)
  shapeCasts_S1x256x512_S131072x1 : S1x256x512.ShapeCasts S131072x1
  inb_S1x8x1024x128_S1x8x1024x128_0_0_0_0 : ∀ a, (![0, 0, 0, 0] : Fin 4 → Nat) a + S1x8x1024x128.size a ≤ S1x8x1024x128.size a
  h_S1x8x1024x128 : 0 < S1x8x1024x128.numel
  shapeCasts_S1x8x1024x128_S8x1024x128 : S1x8x1024x128.ShapeCasts S8x1024x128
  iota_S1024x128_d1_w32 : S1024x128.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  shapeCasts_S1024x128_S1x1024x128 : S1024x128.ShapeCasts S1x1024x128
  broadcasts_S1x1024x128_S8x1024x128 : S1x1024x128.Broadcasts S8x1024x128
  reduces_S8x1024x128_S8x1024 : S8x1024x128.Reduces [2] S8x1024
  inb_S8x1024_S8x1024_0_0 : ∀ a, (![0, 0] : Fin 2 → Nat) a + S8x1024.size a ≤ S8x1024.size a
  h_S8x1024 : 0 < S8x1024.numel
  shapeCasts_S8x131072_S1x8x256x512 : S8x131072.ShapeCasts S1x8x256x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x1024x128.size a ≤ S1x8x131072x128.size a
  hwx0_0 : ∀ i : grid0.Coords, EltTy.bits .f32 = 32 ∨ (Rect.block (s := S1x8x131072x128) S1x8x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S131072x1.size a
  hwx0_1 : ∀ i : grid0.Coords, EltTy.bits .i32 = 32 ∨ (Rect.block (s := S131072x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S131072x1.size a
  hwx0_2 : ∀ i : grid0.Coords, EltTy.bits .i32 = 32 ∨ (Rect.block (s := S131072x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S131072x1.size a
  hwx0_3 : ∀ i : grid0.Coords, EltTy.bits .f32 = 32 ∨ (Rect.block (s := S131072x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S131072x1.size a
  hwx0_4 : ∀ i : grid0.Coords, EltTy.bits .f32 = 32 ∨ (Rect.block (s := S131072x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1024.size a ≤ S8x131072.size a
  hwx0_5 : ∀ i : grid0.Coords, EltTy.bits .f32 = 32 ∨ (Rect.block (s := S8x131072) S8x1024.size (cc0_transform_5 i) (hinb0_5 i)).WholeWords (EltTy.packing .f32)

variable [Facts₀]

abbrev win0_0 : Pipeline.Window sig grid0 :=
  Pipeline.Window.ofSpec (Memref.whole main_arg0) S1x8x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S8x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x8x131072x128 : Shape := ⟨4, ![1, 8, 131072, 128]⟩
abbrev S1x256x512x1 : Shape := ⟨4, ![1, 256, 512, 1]⟩
abbrev S1x8x256x512x128 : Shape := ⟨5, ![1, 8, 256, 512, 128]⟩
abbrev S1x256x512 : Shape := ⟨3, ![1, 256, 512]⟩
abbrev S_ : Shape := ⟨0, ![]⟩
abbrev S1x1x256x512x1 : Shape := ⟨5, ![1, 1, 256, 512, 1]⟩
abbrev S256x512x1x1 : Shape := ⟨4, ![256, 512, 1, 1]⟩
abbrev S1 : Shape := ⟨1, ![1]⟩
abbrev S1x1x1x1 : Shape := ⟨4, ![1, 1, 1, 1]⟩
abbrev S256x512x1 : Shape := ⟨3, ![256, 512, 1]⟩
abbrev S1x8x256x512x1 : Shape := ⟨5, ![1, 8, 256, 512, 1]⟩
abbrev S1x8x256x512 : Shape := ⟨4, ![1, 8, 256, 512]⟩
abbrev S1x1x256x512 : Shape := ⟨4, ![1, 1, 256, 512]⟩

abbrev nBuf : Space → Nat
  | .hbm => 107
  | .vmem => 0
  | .smem => 0
  | _ => 0

abbrev bufTy : (tb : Table) → Fin (tcTables nBuf tb) → BufTy
  | .hbm, ⟨0, _⟩ => ⟨S1x8x131072x128, .f32⟩
  | .hbm, ⟨1, _⟩ => ⟨S1x256x512x1, .f32⟩
  | .hbm, ⟨2, _⟩ => ⟨S1x8x256x512x128, .f32⟩
  | .hbm, ⟨3, _⟩ => ⟨S1x256x512, .f32⟩
  | .hbm, ⟨4, _⟩ => ⟨S_, .f32⟩
  | .hbm, ⟨5, _⟩ => ⟨S1x256x512, .f32⟩
  | .hbm, ⟨6, _⟩ => ⟨S1x256x512, .f32⟩
  | .hbm, ⟨7, _⟩ => ⟨S1x256x512, .f32⟩
  | .hbm, ⟨8, _⟩ => ⟨S1x256x512, .f32⟩
  | .hbm, ⟨9, _⟩ => ⟨S1x256x512, .i32⟩
  | .hbm, ⟨10, _⟩ => ⟨S_, .i32⟩
  | .hbm, ⟨11, _⟩ => ⟨S1x256x512, .i32⟩
  | .hbm, ⟨12, _⟩ => ⟨S1x256x512, .i32⟩
  | .hbm, ⟨13, _⟩ => ⟨S_, .i32⟩
  | .hbm, ⟨14, _⟩ => ⟨S1x256x512, .i32⟩
  | .hbm, ⟨15, _⟩ => ⟨S1x256x512, .i1⟩
  | .hbm, ⟨16, _⟩ => ⟨S_, .i32⟩
  | .hbm, ⟨17, _⟩ => ⟨S1x256x512, .i32⟩
  | .hbm, ⟨18, _⟩ => ⟨S1x256x512, .i1⟩
  | .hbm, ⟨19, _⟩ => ⟨S1x256x512, .i1⟩
  | .hbm, ⟨20, _⟩ => ⟨S1x256x512, .f32⟩
  | .hbm, ⟨21, _⟩ => ⟨S_, .i32⟩
  | .hbm, ⟨22, _⟩ => ⟨S1x256x512, .i32⟩
  | .hbm, ⟨23, _⟩ => ⟨S1x256x512, .i1⟩
  | .hbm, ⟨24, _⟩ => ⟨S_, .i32⟩
  | .hbm, ⟨25, _⟩ => ⟨S1x256x512, .i32⟩
  | .hbm, ⟨26, _⟩ => ⟨S1x256x512, .i1⟩
  | .hbm, ⟨27, _⟩ => ⟨S1x256x512, .i1⟩
  | .hbm, ⟨28, _⟩ => ⟨S1x256x512, .f32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1x256x512, .i32⟩
  | .hbm, ⟨33, _⟩ => ⟨S1x256x512, .i32⟩
  | .hbm, ⟨34, _⟩ => ⟨S_, .i32⟩
  | .hbm, ⟨35, _⟩ => ⟨S1x256x512, .i32⟩
  | .hbm, ⟨36, _⟩ => ⟨S1x256x512, .i32⟩
  | .hbm, ⟨37, _⟩ => ⟨S1x1x256x512x1, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x256x512, .i32⟩
  | .hbm, ⟨42, _⟩ => ⟨S1x256x512, .i32⟩
  | .hbm, ⟨43, _⟩ => ⟨S_, .i32⟩
  | .hbm, ⟨44, _⟩ => ⟨S1x256x512, .i32⟩
  | .hbm, ⟨45, _⟩ => ⟨S1x256x512, .i32⟩
  | .hbm, ⟨46, _⟩ => ⟨S1x1x256x512x1, .i32⟩
  | .hbm, ⟨47, _⟩ => ⟨S_, .i32⟩
  | .hbm, ⟨48, _⟩ => ⟨S1x1x256x512x1, .i32⟩
  | .hbm, ⟨49, _⟩ => ⟨S1x1x256x512x1, .i1⟩
  | .hbm, ⟨50, _⟩ => ⟨S_, .i32⟩
  | .hbm, ⟨51, _⟩ => ⟨S1x1x256x512x1, .i32⟩
  | .hbm, ⟨52, _⟩ => ⟨S1x1x256x512x1, .i32⟩
  | .hbm, ⟨53, _⟩ => ⟨S1x1x256x512x1, .i32⟩
  | .hbm, ⟨54, _⟩ => ⟨S256x512x1x1, .i32⟩
  | .hbm, ⟨55, _⟩ => ⟨S1, .i32⟩
  | .hbm, ⟨56, _⟩ => ⟨S_, .i32⟩
  | .hbm, ⟨57, _⟩ => ⟨S256x512x1x1, .i32⟩
  | .hbm, ⟨58, _⟩ => ⟨S256x512x1x1, .i1⟩
  | .hbm, ⟨59, _⟩ => ⟨S1x1x1x1, .i32⟩
  | .hbm, ⟨60, _⟩ => ⟨S256x512x1x1, .i32⟩
  | .hbm, ⟨61, _⟩ => ⟨S256x512x1x1, .i1⟩
  | .hbm, ⟨62, _⟩ => ⟨S256x512x1x1, .i1⟩
  | .hbm, ⟨63, _⟩ => ⟨S_, .i1⟩
  | .hbm, ⟨64, _⟩ => ⟨S256x512x1, .i1⟩
  | .hbm, ⟨65, _⟩ => ⟨S1x8x256x512x1, .f32⟩
  | .hbm, ⟨66, _⟩ => ⟨S1x8x256x512x1, .i1⟩
  | .hbm, ⟨67, _⟩ => ⟨S_, .f32⟩
  | .hbm, ⟨68, _⟩ => ⟨S1x8x256x512x1, .f32⟩
  | .hbm, ⟨69, _⟩ => ⟨S1x8x256x512x1, .f32⟩
  | .hbm, ⟨70, _⟩ => ⟨S1x8x256x512, .f32⟩
  | .hbm, ⟨71, _⟩ => ⟨S_, .i32⟩
  | .hbm, ⟨72, _⟩ => ⟨S1x1x256x512x1, .i32⟩
  | .hbm, ⟨73, _⟩ => ⟨S1x1x256x512x1, .i1⟩
  | .hbm, ⟨74, _⟩ => ⟨S_, .i32⟩
  | .hbm, ⟨75, _⟩ => ⟨S1x1x256x512x1, .i32⟩
  | .hbm, ⟨76, _⟩ => ⟨S1x1x256x512x1, .i32⟩
  | .hbm, ⟨77, _⟩ => ⟨S1x1x256x512x1, .i32⟩
  | .hbm, ⟨78, _⟩ => ⟨S256x512x1x1, .i32⟩
  | .hbm, ⟨79, _⟩ => ⟨S1, .i32⟩
  | .hbm, ⟨80, _⟩ => ⟨S_, .i32⟩
  | .hbm, ⟨81, _⟩ => ⟨S256x512x1x1, .i32⟩
  | .hbm, ⟨82, _⟩ => ⟨S256x512x1x1, .i1⟩
  | .hbm, ⟨83, _⟩ => ⟨S1x1x1x1, .i32⟩
  | .hbm, ⟨84, _⟩ => ⟨S256x512x1x1, .i32⟩
  | .hbm, ⟨85, _⟩ => ⟨S256x512x1x1, .i1⟩
  | .hbm, ⟨86, _⟩ => ⟨S256x512x1x1, .i1⟩
  | .hbm, ⟨87, _⟩ => ⟨S_, .i1⟩
  | .hbm, ⟨88, _⟩ => ⟨S256x512x1, .i1⟩
  | .hbm, ⟨89, _⟩ => ⟨S1x8x256x512x1, .f32⟩
  | .hbm, ⟨90, _⟩ => ⟨S1x8x256x512x1, .i1⟩
  | .hbm, ⟨91, _⟩ => ⟨S_, .f32⟩
  | .hbm, ⟨92, _⟩ => ⟨S1x8x256x512x1, .f32⟩
  | .hbm, ⟨93, _⟩ => ⟨S1x8x256x512x1, .f32⟩
  | .hbm, ⟨94, _⟩ => ⟨S1x8x256x512, .f32⟩
  | .hbm, ⟨95, _⟩ => ⟨S_, .f32⟩
  | .hbm, ⟨96, _⟩ => ⟨S1x256x512, .f32⟩
  | .hbm, ⟨97, _⟩ => ⟨S1x256x512, .f32⟩
  | .hbm, ⟨98, _⟩ => ⟨S1x256x512, .f32⟩
  | .hbm, ⟨99, _⟩ => ⟨S1x1x256x512, .f32⟩
  | .hbm, ⟨100, _⟩ => ⟨S1x8x256x512, .f32⟩
  | .hbm, ⟨101, _⟩ => ⟨S1x8x256x512, .f32⟩
  | .hbm, ⟨102, _⟩ => ⟨S1x256x512, .f32⟩
  | .hbm, ⟨103, _⟩ => ⟨S1x1x256x512, .f32⟩
  | .hbm, ⟨104, _⟩ => ⟨S1x8x256x512, .f32⟩
  | .hbm, ⟨105, _⟩ => ⟨S1x8x256x512, .f32⟩
  | .hbm, ⟨106, _⟩ => ⟨S1x8x256x512, .f32⟩
  | _, _ => ⟨S1x8x131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_c_5 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_c_7 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v23 : Ref sig .tc := ⟨.hbm, 45, rfl⟩
abbrev main_v24 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_call2_cst : Ref sig .tc := ⟨.hbm, 67, rfl⟩
abbrev main_call2_v15 : Ref sig .tc := ⟨.hbm, 68, rfl⟩
abbrev main_v25 : Ref sig .tc := ⟨.hbm, 69, rfl⟩
abbrev main_v26 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_c_1 : Ref sig .tc := ⟨.hbm, 79, rfl⟩
abbrev main_call3_c_2 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_3 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_call3_cst : Ref sig .tc := ⟨.hbm, 91, rfl⟩
abbrev main_call3_v15 : Ref sig .tc := ⟨.hbm, 92, rfl⟩
abbrev main_v27 : Ref sig .tc := ⟨.hbm, 93, rfl⟩
abbrev main_v28 : Ref sig .tc := ⟨.hbm, 94, rfl⟩
abbrev main_cst_8 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩

abbrev nD : Nat := 1
abbrev τ : Topo := Topo.v7x

variable {F : FTy → Type} [FloatOps F]

class Facts₀ : Prop where
  shapeCasts_S1x8x131072x128_S1x8x256x512x128 : S1x8x131072x128.ShapeCasts S1x8x256x512x128
  shapeCasts_S1x256x512x1_S1x256x512 : S1x256x512x1.ShapeCasts S1x256x512
  bcast_S_S1x256x512 : S_.BroadcastsInDim S1x256x512 (![] : Fin 0 → Fin S1x256x512.rank)
  bcast_S1x256x512_S1x1x256x512x1_0_2_3 : S1x256x512.BroadcastsInDim S1x1x256x512x1 (![0, 2, 3] : Fin 3 → Fin S1x1x256x512x1.rank)
  bcast_S_S1x1x256x512x1 : S_.BroadcastsInDim S1x1x256x512x1 (![] : Fin 0 → Fin S1x1x256x512x1.rank)
  shapeCasts_S1x1x256x512x1_S256x512x1x1 : S1x1x256x512x1.ShapeCasts S256x512x1x1
  bcast_S_S256x512x1x1 : S_.BroadcastsInDim S256x512x1x1 (![] : Fin 0 → Fin S256x512x1x1.rank)
  bcast_S1_S1x1x1x1_3 : S1.BroadcastsInDim S1x1x1x1 (![3] : Fin 1 → Fin S1x1x1x1.rank)
  bcast_S1x1x1x1_S256x512x1x1_0_1_2_3 : S1x1x1x1.BroadcastsInDim S256x512x1x1 (![0, 1, 2, 3] : Fin 4 → Fin S256x512x1x1.rank)
  reducesTo_S256x512x1x1_S256x512x1_d3 : S256x512x1x1.ReducesTo [3] S256x512x1
  h_S_ : 0 < S_.numel
  bcast_S256x512x1_S1x8x256x512x1_2_3_4 : S256x512x1.BroadcastsInDim S1x8x256x512x1 (![2, 3, 4] : Fin 3 → Fin S1x8x256x512x1.rank)
  bcast_S_S1x8x256x512x1 : S_.BroadcastsInDim S1x8x256x512x1 (![] : Fin 0 → Fin S1x8x256x512x1.rank)
  shapeCasts_S1x8x256x512x1_S1x8x256x512 : S1x8x256x512x1.ShapeCasts S1x8x256x512
  bcast_S1x256x512_S1x1x256x512_0_2_3 : S1x256x512.BroadcastsInDim S1x1x256x512 (![0, 2, 3] : Fin 3 → Fin S1x1x256x512.rank)
  bcast_S1x1x256x512_S1x8x256x512_0_1_2_3 : S1x1x256x512.BroadcastsInDim S1x8x256x512 (![0, 1, 2, 3] : Fin 4 → Fin S1x8x256x512.rank)
  gather_S1x8x256x512x128_S256x512x1x1_S1x8x256x512x1_01_4_23_01_4_3_18111_wf : GatherDims.WF S1x8x256x512x128 S256x512x1x1 S1x8x256x512x1 [0, 1] [4] [2, 3] [4] [0, 1] 3 ![1, 8, 1, 1, 1]

variable [Facts₀]

def gather_S1x8x256x512x128_S256x512x1x1_S1x8x256x512x1_01_4_23_01_4_3_18111 : GatherDims S1x8x256x512x128 S256x512x1x1 S1x8x256x512x1 where
  offsetDims := [0, 1]
  collapsedSliceDims := [4]
  operandBatchingDims := [2, 3]
  startIndicesBatchingDims := [0, 1]
  startIndexMap := [4]
  indexVectorDim := 3
  sliceSizes := ![1, 8, 1, 1, 1]
  wf := gather_S1x8x256x512x128_S256x512x1x1_S1x8x256x512x1_01_4_23_01_4_3_18111_wf

class Facts : Prop extends Facts₀ where

variable [Facts]
-- ==== Proof.Taps.lean ====
/-
  Sampling one row of 128 lanes at a fractional position, two ways.

  A flow entry phi gives a position x = phi * 127/128, its integer part floor x read as a signed 32-bit lane number k,
  and the fraction t = x - floor x. Linear interpolation between lanes k and k + 1 with weights 1 - t and t, a lane
  outside 0 .. 127 contributing nothing, can be written
    * as a sum over all 128 lanes d of  f d * ([d = k] * (1 - t) + [d = k + 1] * t), or
    * as  f (clip k) * ((1 - t) * [0 <= k < 128]) + f (clip (k + 1)) * (t * [0 <= k + 1 < 128]),  clip into 0 .. 127.
  They agree on all extended reals: k + 1 and k are different words, so every lane meets at most one of the two
  weights; a lane that meets none contributes f d * 0 = 0; and on the other side a weight times 0 is 0 and times 1 is
  itself. No distributive law is used, so nothing here asks the entries to be finite.
-/
import Idealize.ShloMosaic.PureOps.Ideal
import Idealize.ShloMosaic.Lib.ValueIdx
import Idealize.ShloMosaic.Lib.WordArith

noncomputable section

open scoped BigOperators

namespace Cert.Taps

open Idealize.ShloMosaic

/-! ## The position, its integer part and its fraction, from one flow entry -/

section Chain
variable {F : FTy → Type} [FloatOps F]

/-- The position along the 128 lanes: the flow entry scaled by 127/128 (the word is that dyadic exactly). -/
def coord (φ : F .f32) : F .f32 := FloatOps.mulf φ (FloatOps.ofBits .f32 0x3F7E0000#32)
/-- Its integer part, still a float. -/
def base (φ : F .f32) : F .f32 := FloatOps.hostUnary .floor (coord φ)
/-- Its fractional part: the weight of the upper lane. -/
def frac (φ : F .f32) : F .f32 := FloatOps.subf (coord φ) (base φ)
/-- The lower lane's number, a signed 32-bit word. -/
def lowLane (φ : F .f32) : BitVec 32 := FloatOps.fptosi 32 (base φ)
/-- The weight of the lower lane, one minus the fraction. -/
def lowWeight (φ : F .f32) : F .f32 := FloatOps.subf (FloatOps.ofBits .f32 0x3F800000#32) (frac φ)

end Chain

/-! ## Words: the range test, the clip, and the wrap of a negative index -/

/-- The bit of 0 <= k < 128, as the comparison chain spells it. -/
def inLanes (k : BitVec 32) : BitVec 1 := IntOp.andi (IntOp.cmpi .sge k 0#32) (IntOp.cmpi .slt k 128#32)

/-- The lane number clipped into 0 .. 127. -/
def clipLane (k : BitVec 32) : BitVec 32 := IntOp.minsi 127#32 (IntOp.maxsi 0#32 k)

theorem toInt_zero32 : (0#32 : BitVec 32).toInt = 0 := by decide
theorem toInt_127 : (127#32 : BitVec 32).toInt = 127 := by decide
theorem toInt_128 : (128#32 : BitVec 32).toInt = 128 := by decide

/-- Signed 0 <= k < 128 is unsigned k < 128. -/
theorem inLanes_eq (k : BitVec 32) : inLanes k = BitVec.ofBool (decide (k.toNat < 128)) := by
  unfold inLanes IntOp.cmpi
  rw [WordArith.andi_ofBool]
  congr 1
  have e := BitVec.toInt_eq_toNat_cond k
  have hk := k.isLt
  rw [Bool.eq_iff_iff]
  simp only [Bool.and_eq_true, decide_eq_true_eq, BitVec.sle_iff_toInt_le, BitVec.slt_iff_toInt_lt, toInt_zero32, toInt_128]
  omega

/-- The clip lands in 0 .. 127 and leaves a lane number already there alone. -/
theorem clipLane_spec (k : BitVec 32) :
    0 ≤ (clipLane k).toInt ∧ (clipLane k).toInt ≤ 127 ∧ (k.toNat < 128 → clipLane k = k) := by
  have e := BitVec.toInt_eq_toNat_cond k
  have hk := k.isLt
  unfold clipLane IntOp.minsi IntOp.maxsi
  by_cases h1 : k.slt 0#32 = true
  · have h1' := BitVec.slt_iff_toInt_lt.mp h1
    rw [toInt_zero32] at h1'
    rw [if_pos h1]
    have h2 : ¬ ((127#32 : BitVec 32).slt 0#32 = true) := by decide
    rw [if_neg h2]
    refine ⟨by rw [toInt_zero32], by rw [toInt_zero32]; omega, fun h => ?_⟩
    omega
  · have h1' : ¬ k.toInt < 0 := fun h => h1 (BitVec.slt_iff_toInt_lt.mpr (by rw [toInt_zero32]; exact h))
    rw [if_neg h1]
    by_cases h2 : (127#32 : BitVec 32).slt k = true
    · have h2' := BitVec.slt_iff_toInt_lt.mp h2
      rw [toInt_127] at h2'
      rw [if_pos h2]
      refine ⟨by rw [toInt_127]; omega, by rw [toInt_127], fun h => ?_⟩
      omega
    · have h2' : ¬ (127 < k.toInt) := fun h => h2 (BitVec.slt_iff_toInt_lt.mpr (by rw [toInt_127]; exact h))
      rw [if_neg h2]
      exact ⟨by omega, by omega, fun _ => rfl⟩

/-- A lane number that is not negative is not wrapped around by adding 128. -/
theorem wrap_of_nonneg (c : BitVec 32) (h : 0 ≤ c.toInt) :
    Scalar.select (IntOp.cmpi .slt c 0#32) (IntOp.addi c 128#32) c = c := by
  have hb : IntOp.cmpi .slt c 0#32 = 0#1 := by
    unfold IntOp.cmpi
    have : c.slt 0#32 = false := by
      rw [Bool.eq_false_iff]
      intro hs
      have := BitVec.slt_iff_toInt_lt.mp hs
      rw [toInt_zero32] at this
      omega
    rw [this]; rfl
  rw [hb]
  exact ValueIdx.select_zero _ _

/-- A lane number in 0 .. 127 passes the bounds test 0 <= c <= 127. -/
theorem inBounds_of (c : BitVec 32) (h0 : 0 ≤ c.toInt) (h1 : c.toInt ≤ 127) :
    IntOp.andi (IntOp.cmpi .sge c 0#32) (IntOp.cmpi .sle c 127#32) = 1#1 := by
  unfold IntOp.cmpi
  rw [WordArith.andi_ofBool]
  have a : (0#32 : BitVec 32).sle c = true := BitVec.sle_iff_toInt_le.mpr (by rw [toInt_zero32]; exact h0)
  have b : c.sle 127#32 = true := BitVec.sle_iff_toInt_le.mpr (by rw [toInt_127]; exact h1)
  rw [a, b]; rfl

/-- The range bit read as a float at the ideal instance: one inside the lanes, zero outside. -/
theorem uitofp_inLanes (k : BitVec 32) :
    (FloatOps.uitofp (F := Ideal) .f32 (inLanes k) : EReal) = if k.toNat < 128 then 1 else 0 := by
  rw [inLanes_eq]
  show (((BitVec.ofBool (decide (k.toNat < 128))).toNat : ℝ) : EReal) = _
  by_cases h : k.toNat < 128
  · rw [if_pos h, decide_eq_true h]; simp
  · rw [if_neg h, decide_eq_false h]; simp

/-! ## Lanes as words -/

/-- A lane number below 128, written as a 32-bit word, is the word k exactly when it is k's value. -/
theorem lane_eq_iff (d : Fin 128) (k : BitVec 32) (h : k.toNat < 128) :
    BitVec.ofNat 32 d.val = k ↔ d = ⟨k.toNat, h⟩ := by
  have hd := d.isLt
  constructor
  · intro e
    apply Fin.ext
    have e' := congrArg BitVec.toNat e
    rw [BitVec.toNat_ofNat, Nat.mod_eq_of_lt (by omega)] at e'
    exact e'
  · intro e
    subst e
    apply BitVec.eq_of_toNat_eq
    rw [BitVec.toNat_ofNat]
    exact Nat.mod_eq_of_lt k.isLt

/-- No lane below 128 is a word whose value is 128 or more. -/
theorem lane_ne_of_not_lt (d : Fin 128) (k : BitVec 32) (h : ¬ k.toNat < 128) : ¬ BitVec.ofNat 32 d.val = k := by
  have hd := d.isLt
  intro e
  have e' := congrArg BitVec.toNat e
  rw [BitVec.toNat_ofNat, Nat.mod_eq_of_lt (by omega)] at e'
  omega

/-- The next word is another word. -/
theorem succ_ne_self (k : BitVec 32) : ¬ (k + 1#32 = k) := by
  intro e
  have e' := congrArg BitVec.toNat e
  rw [BitVec.toNat_add] at e'
  have hk := k.isLt
  have h1 : (1#32 : BitVec 32).toNat = 1 := by decide
  rw [h1] at e'
  omega

/-! ## The sums -/

/-- A sum over the lanes that keeps only the lane whose number is the word k: that lane's term, or nothing when k is
    no lane. -/
theorem sum_onehot (g : Fin 128 → EReal) (k : BitVec 32) :
    (∑ d : Fin 128, if BitVec.ofNat 32 d.val = k then g d else 0)
      = if h : k.toNat < 128 then g ⟨k.toNat, h⟩ else 0 := by
  by_cases h : k.toNat < 128
  · rw [dif_pos h]
    simp only [lane_eq_iff _ k h]
    rw [Finset.sum_ite_eq' Finset.univ (⟨k.toNat, h⟩ : Fin 128) g, if_pos (Finset.mem_univ _)]
  · rw [dif_neg h]
    exact Finset.sum_eq_zero fun d _ => if_neg (lane_ne_of_not_lt d k h)

/-- THE LAW, lane sum side: weighting every lane by [d = k] * a + [d = k + 1] * b and adding up leaves lane k times a
    plus lane k + 1 times b, each only if it is a lane. -/
theorem sum_two_taps (f : Fin 128 → EReal) (a b : EReal) (k : BitVec 32) :
    (∑ d : Fin 128, f d * ((if BitVec.ofNat 32 d.val = k then a else 0)
        + (if BitVec.ofNat 32 d.val = k + 1#32 then b else 0)))
      = (if h : k.toNat < 128 then f ⟨k.toNat, h⟩ * a else 0)
        + (if h : (k + 1#32).toNat < 128 then f ⟨(k + 1#32).toNat, h⟩ * b else 0) := by
  rw [← sum_onehot (fun d => f d * a) k, ← sum_onehot (fun d => f d * b) (k + 1#32), ← Finset.sum_add_distrib]
  refine Finset.sum_congr rfl fun d _ => ?_
  by_cases h0 : BitVec.ofNat 32 d.val = k
  · have h1 : ¬ BitVec.ofNat 32 d.val = k + 1#32 := fun e => succ_ne_self k (e.symm.trans h0)
    simp only [if_pos h0, if_neg h1, add_zero]
  · by_cases h1 : BitVec.ofNat 32 d.val = k + 1#32
    · simp only [if_neg h0, if_pos h1, zero_add]
    · simp only [if_neg h0, if_neg h1, add_zero, mul_zero]

/-- One tap, gather side: the lane read at j times the weight masked by the range bit is lane k's term when k is a
    lane (and then j is that lane), nothing otherwise. -/
theorem masked_tap (f : Fin 128 → EReal) (a : EReal) (k : BitVec 32) (j : Fin 128)
    (hj : k.toNat < 128 → j.val = k.toNat) :
    f j * (a * (FloatOps.uitofp (F := Ideal) .f32 (inLanes k) : EReal))
      = if h : k.toNat < 128 then f ⟨k.toNat, h⟩ * a else 0 := by
  rw [uitofp_inLanes]
  by_cases h : k.toNat < 128
  · rw [if_pos h, dif_pos h, mul_one]
    have : j = ⟨k.toNat, h⟩ := Fin.ext (hj h)
    rw [this]
  · rw [if_neg h, dif_neg h, mul_zero, mul_zero]

/-- The value sampled from one row f of 128 lanes at the position a flow entry names, as the lane sum. -/
def sample (f : Fin 128 → EReal) (φ : EReal) : EReal :=
  ∑ d : Fin 128, f d * ((if BitVec.ofNat 32 d.val = lowLane (F := Ideal) φ then lowWeight (F := Ideal) φ else 0)
    + (if BitVec.ofNat 32 d.val = lowLane (F := Ideal) φ + 1#32 then frac (F := Ideal) φ else 0))

/-- THE LAW, both sides: two gathered lanes with masked weights are the lane sum. -/
theorem taps_eq_sample (f : Fin 128 → EReal) (φ : EReal) (j0 j1 : Fin 128)
    (hj0 : (lowLane (F := Ideal) φ).toNat < 128 → j0.val = (lowLane (F := Ideal) φ).toNat)
    (hj1 : (lowLane (F := Ideal) φ + 1#32).toNat < 128 → j1.val = (lowLane (F := Ideal) φ + 1#32).toNat) :
    f j0 * (lowWeight (F := Ideal) φ * (FloatOps.uitofp (F := Ideal) .f32 (inLanes (lowLane (F := Ideal) φ)) : EReal))
      + f j1 * (frac (F := Ideal) φ * (FloatOps.uitofp (F := Ideal) .f32 (inLanes (lowLane (F := Ideal) φ + 1#32)) : EReal))
      = sample f φ := by
  unfold sample
  rw [sum_two_taps, masked_tap f _ _ j0 hj0, masked_tap f _ _ j1 hj1]

/-- A select on the bit of an equality of words is the if on the equality. -/
theorem select_eq {α : Type} (a b : BitVec 32) (x y : α) :
    Scalar.select (IntOp.cmpi .eq a b) x y = if a = b then x else y := by
  unfold IntOp.cmpi Scalar.select
  by_cases h : a = b
  · subst h; simp
  · rw [if_neg h]
    have : (a == b) = false := by simpa using h
    rw [this]; rfl

/-! ## The result array -/

open Idealize.ShloMosaic.ValueIdx in
/-- The result at channel c and pixel (h, w): row (c, 512 h + w) of the cost volume, a row of 128 lanes, sampled at
    the position the pixel's flow entry names. -/
def resultAt (cv : (⟨4, ![1, 8, 131072, 128]⟩ : Shape).Idx → EReal) (fl : (⟨4, ![1, 256, 512, 1]⟩ : Shape).Idx → EReal)
    (c : Fin 8) (h : Fin 256) (w : Fin 512) : EReal :=
  sample (fun d => cv (ix4 (0 : Fin 1) c (⟨h.val * 512 + w.val, by have := h.isLt; have := w.isLt; omega⟩ : Fin 131072) d))
    (fl (ix4 (0 : Fin 1) h w (0 : Fin 1)))

/-- The whole result, [1, 8, 256, 512]. -/
def result (cv : (⟨4, ![1, 8, 131072, 128]⟩ : Shape).Idx → EReal) (fl : (⟨4, ![1, 256, 512, 1]⟩ : Shape).Idx → EReal) :
    (⟨4, ![1, 8, 256, 512]⟩ : Shape).Idx → EReal :=
  fun i => resultAt cv fl (i 1) (i 2) (i 3)

end Cert.Taps

end
-- ==== Proof.RefValue.lean ====
/-
  The reference's result, read index by index, is the sampled array: at channel c and pixel (h, w) it gathers lanes
  clip k and clip (k + 1) of row (c, 512 h + w) of the cost volume, k the lower lane of the pixel's flow entry, and adds
  them with the weights 1 - t and t, each masked by its lane's range test. By the two-tap law that is the lane sum.
-/
import proofs.«143381_j91225105367329_1_alg».proof.Proof.RefRead
import proofs.«143381_j91225105367329_1_alg».proof.Proof.Taps
import Idealize.ShloMosaic.Lib.Pipeline.Value
import Idealize.ShloMosaic.Lib.ValueIdx
import Idealize.ShloMosaic.Lib.ReduceAll

noncomputable section

open Idealize.ShloMosaic Idealize.ShloMosaic.ValueIdx

namespace Cert.RefSample

open Cert.ReferenceIdeal Cert.ReferenceIdeal.Gen Cert.ReferenceIdeal.Read

/-! ## The two operations read by hand: the reduce over an axis of size one, and the gather -/

/-- A left fold by and, from 1, over words that are all 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi 1#1 (f a) = 1#1 := by rw [hf a]; decide
    rw [List.foldl_cons, e]
    exact foldl_andi_ones f hf l

/-- A reduce by and, from 1, of an array that is 1 everywhere, is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_ones x hx _

/-- A start index read signed and clamped into the 128 lanes. -/
def laneOf (k : BitVec 32) : Fin 128 := ⟨min k.toInt.toNat 127, by omega⟩

section Gather
variable (idx : IVec S256x512x1x1 32) (z : Fin 1) (c : Fin 8) (h : Fin 256) (w : Fin 512) (e : Fin 1)

/-- The start-indices index (h, w, e, 0) at which result index (z, c, h, w, e) reads its start index: the start index
    has one component, so the coordinate on the index vector's axis is 0. -/
theorem gather_siIdx (k : Fin gather_S1x8x256x512x128_S256x512x1x1_S1x8x256x512x1_01_4_23_01_4_3_18111.startIndexMap.length) :
    gather_S1x8x256x512x128_S256x512x1x1_S1x8x256x512x1_01_4_23_01_4_3_18111.siIdx (ix5 z c h w e) k
      = ix4 h w e (0 : Fin 1) := by
  have hl : gather_S1x8x256x512x128_S256x512x1x1_S1x8x256x512x1_01_4_23_01_4_3_18111.startIndexMap.length = 1 := rfl
  have hk : k.val = 0 := by have := k.isLt; omega
  funext b; refine Fin.ext ?_
  fin_cases b
  · rfl
  · rfl
  · rfl
  · exact hk

/-- Operand axis 0 is an offset axis: the result's coordinate 0. -/
theorem gather_axis0 :
    gather_S1x8x256x512x128_S256x512x1x1_S1x8x256x512x1_01_4_23_01_4_3_18111.start (ix5 z c h w e) idx (0 : Fin 5)
      + gather_S1x8x256x512x128_S256x512x1x1_S1x8x256x512x1_01_4_23_01_4_3_18111.batchCoord (ix5 z c h w e) (0 : Fin 5)
      + gather_S1x8x256x512x128_S256x512x1x1_S1x8x256x512x1_01_4_23_01_4_3_18111.offCoord (ix5 z c h w e) (0 : Fin 5) = z.val := by
  unfold GatherDims.start
  rw [dif_neg (by decide), GatherDims.batchCoord_eq_zero _ _ _ (by decide)]
  simp only [Nat.zero_add, Nat.add_zero]
  rfl

/-- Operand axis 1 is an offset axis: the result's coordinate 1, the channel. -/
theorem gather_axis1 :
    gather_S1x8x256x512x128_S256x512x1x1_S1x8x256x512x1_01_4_23_01_4_3_18111.start (ix5 z c h w e) idx (1 : Fin 5)
      + gather_S1x8x256x512x128_S256x512x1x1_S1x8x256x512x1_01_4_23_01_4_3_18111.batchCoord (ix5 z c h w e) (1 : Fin 5)
      + gather_S1x8x256x512x128_S256x512x1x1_S1x8x256x512x1_01_4_23_01_4_3_18111.offCoord (ix5 z c h w e) (1 : Fin 5) = c.val := by
  unfold GatherDims.start
  rw [dif_neg (by decide), GatherDims.batchCoord_eq_zero _ _ _ (by decide)]
  simp only [Nat.zero_add, Nat.add_zero]
  rfl

/-- Operand axis 2 is a batching axis: the result's coordinate 2, the pixel's row. -/
theorem gather_axis2 :
    gather_S1x8x256x512x128_S256x512x1x1_S1x8x256x512x1_01_4_23_01_4_3_18111.start (ix5 z c h w e) idx (2 : Fin 5)
      + gather_S1x8x256x512x128_S256x512x1x1_S1x8x256x512x1_01_4_23_01_4_3_18111.batchCoord (ix5 z c h w e) (2 : Fin 5)
      + gather_S1x8x256x512x128_S256x512x1x1_S1x8x256x512x1_01_4_23_01_4_3_18111.offCoord (ix5 z c h w e) (2 : Fin 5) = h.val := by
  unfold GatherDims.start
  rw [dif_neg (by decide), GatherDims.offCoord_eq_zero _ _ _ (by decide)]
  simp only [Nat.zero_add, Nat.add_zero]
  rfl

/-- Operand axis 3 is a batching axis: the result's coordinate 3, the pixel's column. -/
theorem gather_axis3 :
    gather_S1x8x256x512x128_S256x512x1x1_S1x8x256x512x1_01_4_23_01_4_3_18111.start (ix5 z c h w e) idx (3 : Fin 5)
      + gather_S1x8x256x512x128_S256x512x1x1_S1x8x256x512x1_01_4_23_01_4_3_18111.batchCoord (ix5 z c h w e) (3 : Fin 5)
      + gather_S1x8x256x512x128_S256x512x1x1_S1x8x256x512x1_01_4_23_01_4_3_18111.offCoord (ix5 z c h w e) (3 : Fin 5) = w.val := by
  unfold GatherDims.start
  rw [dif_neg (by decide), GatherDims.offCoord_eq_zero _ _ _ (by decide)]
  simp only [Nat.zero_add, Nat.add_zero]
  rfl

/-- Operand axis 4, the lanes, is the collapsed axis the start index names: the start index read signed and clamped. -/
theorem gather_axis4 :
    gather_S1x8x256x512x128_S256x512x1x1_S1x8x256x512x1_01_4_23_01_4_3_18111.start (ix5 z c h w e) idx (4 : Fin 5)
      + gather_S1x8x256x512x128_S256x512x1x1_S1x8x256x512x1_01_4_23_01_4_3_18111.batchCoord (ix5 z c h w e) (4 : Fin 5)
      + gather_S1x8x256x512x128_S256x512x1x1_S1x8x256x512x1_01_4_23_01_4_3_18111.offCoord (ix5 z c h w e) (4 : Fin 5)
      = (laneOf (idx (ix4 h w e (0 : Fin 1)))).val := by
  rw [GatherDims.batchCoord_eq_zero _ _ _ (by decide), GatherDims.offCoord_eq_zero _ _ _ (by decide)]
  simp only [Nat.zero_add, Nat.add_zero]
  unfold GatherDims.start
  rw [dif_pos (by decide), gather_siIdx]
  rfl

/-- THE GATHER READ AT (z, c, h, w, e): the operand at (z, c, h, w, lane), the lane the start index at (h, w, e, 0)
    read signed and clamped into 0 .. 127. -/
theorem gather_at {α : Type} (x : S1x8x256x512x128.Idx → α) :
    Host.gather gather_S1x8x256x512x128_S256x512x1x1_S1x8x256x512x1_01_4_23_01_4_3_18111 x idx (ix5 z c h w e)
      = x (ix5 z c h w (laneOf (idx (ix4 h w e (0 : Fin 1))))) := by
  unfold Host.gather
  congr 1
  funext a
  refine Fin.ext ?_
  show gather_S1x8x256x512x128_S256x512x1x1_S1x8x256x512x1_01_4_23_01_4_3_18111.start (ix5 z c h w e) idx a
    + gather_S1x8x256x512x128_S256x512x1x1_S1x8x256x512x1_01_4_23_01_4_3_18111.batchCoord (ix5 z c h w e) a
    + gather_S1x8x256x512x128_S256x512x1x1_S1x8x256x512x1_01_4_23_01_4_3_18111.offCoord (ix5 z c h w e) a = _
  match a with
  | ⟨0, _⟩ => exact gather_axis0 idx z c h w e
  | ⟨1, _⟩ => exact gather_axis1 idx z c h w e
  | ⟨2, _⟩ => exact gather_axis2 idx z c h w e
  | ⟨3, _⟩ => exact gather_axis3 idx z c h w e
  | ⟨4, _⟩ => exact gather_axis4 idx z c h w e

end Gather

/-! ## The per-pixel chain, at every index of the [1, 256, 512] arrays

With φ the entry of the reshaped flow array at p, each stage is the named quantity of the shared chain. -/

section Pixel
variable (x1 : (⟨S1x256x512x1, .f32⟩ : BufTy).Contents (Elt Ideal)) (p : S1x256x512.Idx)

theorem v3_eq : val_main_v3 (F := Ideal) x1 p = Cert.Taps.coord (F := Ideal) (val_main_v1 (F := Ideal) x1 p) := by
  rw [val_main_v3_apply, val_main_v2_apply, val_main_cst_apply]; rfl

theorem v4_eq : val_main_v4 (F := Ideal) x1 p = Cert.Taps.base (F := Ideal) (val_main_v1 (F := Ideal) x1 p) := by
  rw [val_main_v4_apply, v3_eq]; rfl

theorem v5_eq : val_main_v5 (F := Ideal) x1 p = Cert.Taps.frac (F := Ideal) (val_main_v1 (F := Ideal) x1 p) := by
  rw [val_main_v5_apply, v4_eq, v3_eq]; rfl

theorem v6_eq : val_main_v6 (F := Ideal) x1 p = Cert.Taps.lowLane (F := Ideal) (val_main_v1 (F := Ideal) x1 p) := by
  rw [val_main_v6_apply, v4_eq]; rfl

theorem v8_eq : val_main_v8 (F := Ideal) x1 p = Cert.Taps.lowLane (F := Ideal) (val_main_v1 (F := Ideal) x1 p) + 1#32 := by
  rw [val_main_v8_apply, v6_eq, val_main_v7_apply, val_main_c_apply]; rfl

theorem v30_eq : val_main_v30 (F := Ideal) x1 p = Cert.Taps.lowWeight (F := Ideal) (val_main_v1 (F := Ideal) x1 p) := by
  rw [val_main_v30_apply, val_main_v29_apply, val_main_cst_8_apply, v5_eq]; rfl

theorem v13_eq : val_main_v13 (F := Ideal) x1 p
    = Cert.Taps.inLanes (Cert.Taps.lowLane (F := Ideal) (val_main_v1 (F := Ideal) x1 p)) := by
  rw [val_main_v13_apply, val_main_v10_apply, val_main_v12_apply, v6_eq, val_main_v9_apply, val_main_c_0_apply,
    val_main_v11_apply, val_main_c_1_apply]; rfl

theorem v19_eq : val_main_v19 (F := Ideal) x1 p
    = Cert.Taps.inLanes (Cert.Taps.lowLane (F := Ideal) (val_main_v1 (F := Ideal) x1 p) + 1#32) := by
  rw [val_main_v19_apply, val_main_v16_apply, val_main_v18_apply, v8_eq, val_main_v15_apply, val_main_c_2_apply,
    val_main_v17_apply, val_main_c_3_apply]; rfl

/-- The lower lane's weight, masked by its range bit. -/
theorem v31_eq : val_main_v31 (F := Ideal) x1 p
    = Cert.Taps.lowWeight (F := Ideal) (val_main_v1 (F := Ideal) x1 p)
      * (FloatOps.uitofp (F := Ideal) .f32 (Cert.Taps.inLanes (Cert.Taps.lowLane (F := Ideal) (val_main_v1 (F := Ideal) x1 p))) : EReal) := by
  rw [val_main_v31_apply, v30_eq, val_main_v14_apply, v13_eq]; rfl

/-- The upper lane's weight, masked by its range bit. -/
theorem v35_eq : val_main_v35 (F := Ideal) x1 p
    = Cert.Taps.frac (F := Ideal) (val_main_v1 (F := Ideal) x1 p)
      * (FloatOps.uitofp (F := Ideal) .f32 (Cert.Taps.inLanes (Cert.Taps.lowLane (F := Ideal) (val_main_v1 (F := Ideal) x1 p) + 1#32)) : EReal) := by
  rw [val_main_v35_apply, v5_eq, val_main_v20_apply, v19_eq]; rfl

/-- The first clip: the lower lane's number clipped into 0 .. 127. -/
theorem v21_eq : val_main_v21 (F := Ideal) x1 p = Cert.Taps.clipLane (val_main_v6 (F := Ideal) x1 p) := by
  rw [val_main_v21_apply, val_main_call0_v4_apply, val_main_call0_v3_apply, val_main_c_5_apply, val_main_call0_v2_apply,
    val_main_call0_v1_apply, val_main_call0_v0_apply, val_main_c_4_apply]; rfl

/-- The second clip: the upper lane's number clipped into 0 .. 127. -/
theorem v23_eq : val_main_v23 (F := Ideal) x1 p = Cert.Taps.clipLane (val_main_v8 (F := Ideal) x1 p) := by
  rw [val_main_v23_apply, val_main_call1_v4_apply, val_main_call1_v3_apply, val_main_c_7_apply, val_main_call1_v2_apply,
    val_main_call1_v1_apply, val_main_call1_v0_apply, val_main_c_6_apply]; rfl

end Pixel

/-! ## Inside the two calls that take along the lane axis: the index is never wrapped, the bounds test never fails -/

section Take
variable (x0 : (⟨S1x8x131072x128, .f32⟩ : BufTy).Contents (Elt Ideal)) (x1 : (⟨S1x256x512x1, .f32⟩ : BufTy).Contents (Elt Ideal))

/-- A clipped lane number is not negative, so adding 128 to negative indices leaves it alone (first call). -/
theorem call2_v4_eq (r : S1x1x256x512x1.Idx) :
    val_main_call2_v4 (F := Ideal) x1 r = Cert.Taps.clipLane (val_main_v6 (F := Ideal) x1 (idx_main_v22 r)) := by
  rw [val_main_call2_v4_apply, val_main_call2_v1_apply, val_main_call2_v3_apply, val_main_call2_v0_apply,
    val_main_call2_c_apply, val_main_call2_v2_apply, val_main_call2_c_0_apply, val_main_v22_apply, v21_eq]
  exact Cert.Taps.wrap_of_nonneg _ (Cert.Taps.clipLane_spec _).1

/-- The same in the second call. -/
theorem call3_v4_eq (r : S1x1x256x512x1.Idx) :
    val_main_call3_v4 (F := Ideal) x1 r = Cert.Taps.clipLane (val_main_v8 (F := Ideal) x1 (idx_main_v24 r)) := by
  rw [val_main_call3_v4_apply, val_main_call3_v1_apply, val_main_call3_v3_apply, val_main_call3_v0_apply,
    val_main_call3_c_apply, val_main_call3_v2_apply, val_main_call3_c_0_apply, val_main_v24_apply, v23_eq]
  exact Cert.Taps.wrap_of_nonneg _ (Cert.Taps.clipLane_spec _).1

/-- The bounds test 0 <= index <= 127 holds at every index (first call). -/
theorem call2_v11_eq (i : S256x512x1x1.Idx) : val_main_call2_v11 (F := Ideal) x1 i = 1#1 := by
  rw [val_main_call2_v11_apply, val_main_call2_v7_apply, val_main_call2_v10_apply, val_main_call2_v6_apply,
    val_main_call2_c_2_apply, val_main_call2_v9_apply, val_main_call2_v8_apply, val_main_call2_c_1_apply,
    val_main_call2_v5_apply, call2_v4_eq]
  exact Cert.Taps.inBounds_of _ (Cert.Taps.clipLane_spec _).1 (Cert.Taps.clipLane_spec _).2.1

/-- The same in the second call. -/
theorem call3_v11_eq (i : S256x512x1x1.Idx) : val_main_call3_v11 (F := Ideal) x1 i = 1#1 := by
  rw [val_main_call3_v11_apply, val_main_call3_v7_apply, val_main_call3_v10_apply, val_main_call3_v6_apply,
    val_main_call3_c_2_apply, val_main_call3_v9_apply, val_main_call3_v8_apply, val_main_call3_c_1_apply,
    val_main_call3_v5_apply, call3_v4_eq]
  exact Cert.Taps.inBounds_of _ (Cert.Taps.clipLane_spec _).1 (Cert.Taps.clipLane_spec _).2.1

/-- So its reduce by and over the axis of size one is 1 everywhere (first call). -/
theorem call2_v12_eq (j : S256x512x1.Idx) : val_main_call2_v12 (F := Ideal) x1 j = 1#1 := by
  unfold val_main_call2_v12
  exact reduce_andi_ones _ _ _ _ (call2_v11_eq x1) (fun _ => rfl) j

/-- The same in the second call. -/
theorem call3_v12_eq (j : S256x512x1.Idx) : val_main_call3_v12 (F := Ideal) x1 j = 1#1 := by
  unfold val_main_call3_v12
  exact reduce_andi_ones _ _ _ _ (call3_v11_eq x1) (fun _ => rfl) j

/-- The fill value is never selected: the first call's result is its gather. -/
theorem v25_eq (q : S1x8x256x512x1.Idx) :
    val_main_v25 (F := Ideal) x0 x1 q = val_main_call2_v13 (F := Ideal) x0 x1 q := by
  rw [val_main_v25_apply, val_main_call2_v14_apply, call2_v12_eq]
  exact select_one _ _

/-- The same for the second call. -/
theorem v27_eq (q : S1x8x256x512x1.Idx) :
    val_main_v27 (F := Ideal) x0 x1 q = val_main_call3_v13 (F := Ideal) x0 x1 q := by
  rw [val_main_v27_apply, val_main_call3_v14_apply, call3_v12_eq]
  exact select_one _ _

end Take

/-! ## The composed index functions, at explicit coordinates -/

section Indices
variable (z : Fin 1) (c : Fin 8) (h : Fin 256) (w : Fin 512) (e : Fin 1) (d : Fin 128)

/-- The row of the cost volume that pixel (h, w) samples. -/
abbrev rowOf : Fin 131072 := ⟨h.val * 512 + w.val, by have := h.isLt; have := w.isLt; omega⟩

/-- The reshaped flow array at (0, h, w) reads the flow array at (0, h, w, 0). -/
theorem idx1_eq : idx_main_v1 (ix3 (0 : Fin 1) h w) = ix4 (0 : Fin 1) h w (0 : Fin 1) := by
  funext a; refine Fin.ext ?_
  have := h.isLt; have := w.isLt
  match a with
  | ⟨0, _⟩ => rfl
  | ⟨1, _⟩ => show ((0 * 256 + h.val) * 512 + w.val) / 512 % 256 = h.val; omega
  | ⟨2, _⟩ => show ((0 * 256 + h.val) * 512 + w.val) / 1 % 512 = w.val; omega
  | ⟨3, _⟩ => rfl

/-- A weight broadcast over the channels reads the per-pixel array at (0, h, w) (lower lane's weight). -/
theorem idx32_eq : idx_main_v32 (idx_main_v33 (ix4 z c h w)) = ix3 (0 : Fin 1) h w := by
  funext a; refine Fin.ext ?_
  match a with
  | ⟨0, _⟩ => rfl
  | ⟨1, _⟩ => rfl
  | ⟨2, _⟩ => rfl

/-- The same for the upper lane's weight. -/
theorem idx36_eq : idx_main_v36 (idx_main_v37 (ix4 z c h w)) = ix3 (0 : Fin 1) h w := by
  funext a; refine Fin.ext ?_
  match a with
  | ⟨0, _⟩ => rfl
  | ⟨1, _⟩ => rfl
  | ⟨2, _⟩ => rfl

/-- The result of the first take, reshaped, at (z, c, h, w) reads it at (0, c, h, w, 0). -/
theorem idx26_eq : idx_main_v26 (ix4 z c h w) = ix5 (0 : Fin 1) c h w (0 : Fin 1) := by
  funext a; refine Fin.ext ?_
  have := z.isLt; have := c.isLt; have := h.isLt; have := w.isLt
  match a with
  | ⟨0, _⟩ => rfl
  | ⟨1, _⟩ => show (((z.val * 8 + c.val) * 256 + h.val) * 512 + w.val) / 131072 % 8 = c.val; omega
  | ⟨2, _⟩ => show (((z.val * 8 + c.val) * 256 + h.val) * 512 + w.val) / 512 % 256 = h.val; omega
  | ⟨3, _⟩ => show (((z.val * 8 + c.val) * 256 + h.val) * 512 + w.val) / 1 % 512 = w.val; omega
  | ⟨4, _⟩ => rfl

/-- The same for the second take. -/
theorem idx28_eq : idx_main_v28 (ix4 z c h w) = ix5 (0 : Fin 1) c h w (0 : Fin 1) := by
  funext a; refine Fin.ext ?_
  have := z.isLt; have := c.isLt; have := h.isLt; have := w.isLt
  match a with
  | ⟨0, _⟩ => rfl
  | ⟨1, _⟩ => show (((z.val * 8 + c.val) * 256 + h.val) * 512 + w.val) / 131072 % 8 = c.val; omega
  | ⟨2, _⟩ => show (((z.val * 8 + c.val) * 256 + h.val) * 512 + w.val) / 512 % 256 = h.val; omega
  | ⟨3, _⟩ => show (((z.val * 8 + c.val) * 256 + h.val) * 512 + w.val) / 1 % 512 = w.val; omega
  | ⟨4, _⟩ => rfl

/-- The start index at (h, w, e, 0) is the clipped lane number of pixel (h, w) (first take). -/
theorem idx22_eq : idx_main_v22 (idx_main_call2_v5 (ix4 h w e (0 : Fin 1))) = ix3 (0 : Fin 1) h w := by
  funext a; refine Fin.ext ?_
  have := h.isLt; have := w.isLt; have := e.isLt
  match a with
  | ⟨0, _⟩ => rfl
  | ⟨1, _⟩ => show (((h.val * 512 + w.val) * 1 + e.val) * 1 + 0) / 512 % 256 = h.val; omega
  | ⟨2, _⟩ => show (((h.val * 512 + w.val) * 1 + e.val) * 1 + 0) / 1 % 512 = w.val; omega

/-- The same for the second take. -/
theorem idx24_eq : idx_main_v24 (idx_main_call3_v5 (ix4 h w e (0 : Fin 1))) = ix3 (0 : Fin 1) h w := by
  funext a; refine Fin.ext ?_
  have := h.isLt; have := w.isLt; have := e.isLt
  match a with
  | ⟨0, _⟩ => rfl
  | ⟨1, _⟩ => show (((h.val * 512 + w.val) * 1 + e.val) * 1 + 0) / 512 % 256 = h.val; omega
  | ⟨2, _⟩ => show (((h.val * 512 + w.val) * 1 + e.val) * 1 + 0) / 1 % 512 = w.val; omega

/-- The cost volume viewed as [1, 8, 256, 512, 128], at (0, c, h, w, d), is its row (c, 512 h + w) at lane d. -/
theorem idx0_eq : idx_main_v0 (ix5 (0 : Fin 1) c h w d) = ix4 (0 : Fin 1) c (rowOf h w) d := by
  funext a; refine Fin.ext ?_
  have := c.isLt; have := h.isLt; have := w.isLt; have := d.isLt
  match a with
  | ⟨0, _⟩ => rfl
  | ⟨1, _⟩ => show ((((0 * 8 + c.val) * 256 + h.val) * 512 + w.val) * 128 + d.val) / 16777216 % 8 = c.val; omega
  | ⟨2, _⟩ => show ((((0 * 8 + c.val) * 256 + h.val) * 512 + w.val) * 128 + d.val) / 128 % 131072 = h.val * 512 + w.val; omega
  | ⟨3, _⟩ => show ((((0 * 8 + c.val) * 256 + h.val) * 512 + w.val) * 128 + d.val) % 128 = d.val; omega

end Indices

/-! ## The stages at channel c and pixel (h, w) -/

section At
variable (x0 : (⟨S1x8x131072x128, .f32⟩ : BufTy).Contents (Elt Ideal)) (x1 : (⟨S1x256x512x1, .f32⟩ : BufTy).Contents (Elt Ideal))
variable (z : Fin 1) (c : Fin 8) (h : Fin 256) (w : Fin 512)

/-- The flow entry of pixel (h, w). -/
theorem v1_at : val_main_v1 (F := Ideal) x1 (ix3 (0 : Fin 1) h w) = x1 (ix4 (0 : Fin 1) h w (0 : Fin 1)) := by
  rw [val_main_v1_apply, idx1_eq]

/-- The lower lane's masked weight, broadcast over the channels. -/
theorem v33_at : val_main_v33 (F := Ideal) x1 (ix4 z c h w)
    = Cert.Taps.lowWeight (F := Ideal) (x1 (ix4 (0 : Fin 1) h w (0 : Fin 1)))
      * (FloatOps.uitofp (F := Ideal) .f32 (Cert.Taps.inLanes (Cert.Taps.lowLane (F := Ideal) (x1 (ix4 (0 : Fin 1) h w (0 : Fin 1))))) : EReal) := by
  rw [val_main_v33_apply, val_main_v32_apply, idx32_eq, v31_eq, v1_at]

/-- The upper lane's masked weight, broadcast over the channels. -/
theorem v37_at : val_main_v37 (F := Ideal) x1 (ix4 z c h w)
    = Cert.Taps.frac (F := Ideal) (x1 (ix4 (0 : Fin 1) h w (0 : Fin 1)))
      * (FloatOps.uitofp (F := Ideal) .f32 (Cert.Taps.inLanes (Cert.Taps.lowLane (F := Ideal) (x1 (ix4 (0 : Fin 1) h w (0 : Fin 1))) + 1#32)) : EReal) := by
  rw [val_main_v37_apply, val_main_v36_apply, idx36_eq, v35_eq, v1_at]

/-- The first take: row (c, 512 h + w) at the clipped lower lane. -/
theorem v26_at : val_main_v26 (F := Ideal) x0 x1 (ix4 z c h w)
    = x0 (ix4 (0 : Fin 1) c (rowOf h w)
        (laneOf (Cert.Taps.clipLane (Cert.Taps.lowLane (F := Ideal) (x1 (ix4 (0 : Fin 1) h w (0 : Fin 1))))))) := by
  rw [val_main_v26_apply, idx26_eq, v25_eq]
  unfold val_main_call2_v13
  refine (gather_at (val_main_call2_v5 (F := Ideal) x1) 0 c h w 0 (val_main_v0 (F := Ideal) x0)).trans ?_
  rw [val_main_v0_apply, idx0_eq, val_main_call2_v5_apply, call2_v4_eq, idx22_eq, v6_eq, v1_at]

/-- The second take: row (c, 512 h + w) at the clipped upper lane. -/
theorem v28_at : val_main_v28 (F := Ideal) x0 x1 (ix4 z c h w)
    = x0 (ix4 (0 : Fin 1) c (rowOf h w)
        (laneOf (Cert.Taps.clipLane (Cert.Taps.lowLane (F := Ideal) (x1 (ix4 (0 : Fin 1) h w (0 : Fin 1))) + 1#32)))) := by
  rw [val_main_v28_apply, idx28_eq, v27_eq]
  unfold val_main_call3_v13
  refine (gather_at (val_main_call3_v5 (F := Ideal) x1) 0 c h w 0 (val_main_v0 (F := Ideal) x0)).trans ?_
  rw [val_main_v0_apply, idx0_eq, val_main_call3_v5_apply, call3_v4_eq, idx24_eq, v8_eq, v1_at]

end At

/-- A lane number that is a lane is its own clip, and is read back as itself. -/
theorem laneOf_clip (k : BitVec 32) (hk : k.toNat < 128) : (laneOf (Cert.Taps.clipLane k)).val = k.toNat := by
  rw [(Cert.Taps.clipLane_spec k).2.2 hk]
  have e := BitVec.toInt_eq_toNat_cond k
  show min k.toInt.toNat 127 = k.toNat
  omega

/-- The reference's last stage, at the ideal instance, is the sampled array of its two arguments. -/
theorem ref_eq (x0 : (⟨S1x8x131072x128, .f32⟩ : BufTy).Contents (Elt Ideal)) (x1 : (⟨S1x256x512x1, .f32⟩ : BufTy).Contents (Elt Ideal)) :
    val_main_v39 (F := Ideal) x0 x1 = Cert.Taps.result x0 x1 := by
  funext i
  obtain ⟨z, c, h, w, rfl⟩ : ∃ (z : Fin 1) (c : Fin 8) (h : Fin 256) (w : Fin 512), i = ix4 z c h w :=
    ⟨i 0, i 1, i 2, i 3, eq_ix4 i⟩
  rw [val_main_v39_apply, val_main_v34_apply, val_main_v38_apply, v26_at, v28_at, v33_at, v37_at]
  exact Cert.Taps.taps_eq_sample (fun d => x0 (ix4 (0 : Fin 1) c (rowOf h w) d)) (x1 (ix4 (0 : Fin 1) h w (0 : Fin 1))) _ _
    (fun hk => laneOf_clip _ hk) (fun hk => laneOf_clip _ hk)

end Cert.RefSample

end
-- ==== Proof.KernelValue.lean ====
/-
  The kernel's result is the sampled array. Grid point t stages rows 1024 t .. 1024 t + 1023 of the cost volume and of
  the four per-pixel columns (the two lane numbers k and k + 1, the two weights 1 - t and t) and writes back, for each
  of the 8 channels and each staged row, the lane sum of the row weighted by [d = k] * (1 - t) + [d = k + 1] * t. The 128
  blocks tile the [8, 131072] result, which the last host operation views as [1, 8, 256, 512]. The four columns are
  computed before the region from the flow array, pixel (h, w) in row 512 h + w.
-/
import proofs.«143381_j91225105367329_1_alg».proof.Proof.Gen.KernelIdeal.Frame
import proofs.«143381_j91225105367329_1_alg».proof.Proof.Taps
import Idealize.ShloMosaic.Lib.Pipeline.Value
import Idealize.ShloMosaic.Lib.ValueIdx
import Idealize.ShloMosaic.PureOps.Ideal.Laws
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelSample

open Cert.KernelIdeal Cert.KernelIdeal.Gen

/-! ## The layout operations of the body, read at an index -/

/-- A sum over the lane axis of an [8, 1024, 128] array, at channel c and row r. -/
theorem lane_sum (src : FVec Ideal S8x1024x128 .f32) (h : S8x1024x128.Reduces [2] S8x1024) (hφ : FKind.Formats .f32)
    (hacc : (0x00000000#32 : BitVec 32) = FKind.add.neutral .f32 hφ) (c : Fin 8) (r : Fin 1024) :
    multiReduction .add [2] S8x1024 src 0x00000000#32 h hφ hacc (ix2 c r) = ∑ d : Fin 128, src (ix3 c r d) := by
  refine (Ideal.multiReduction_add_single src 0x00000000#32 h hφ hacc (ix2 c r)).trans ?_
  refine Finset.sum_congr rfl fun d _ => congrArg src ?_
  funext a
  match a with
  | ⟨0, _⟩ => rfl
  | ⟨1, _⟩ => rfl
  | ⟨2, _⟩ => rfl

/-- The [1, 8, 1024, 128] block viewed as [8, 1024, 128]. -/
theorem drop_unit {α : Type} (v : S1x8x1024x128.Idx → α) (h : S1x8x1024x128.ShapeCasts S8x1024x128) (c : Fin 8) (r : Fin 1024)
    (d : Fin 128) : shapeCast S8x1024x128 v h (ix3 c r d) = v (ix4 (0 : Fin 1) c r d) :=
  shapeCast_apply v h (ix3 c r d) (ix4 (0 : Fin 1) c r d) (by
    rw [Shape.rowMajor_val_four, Shape.rowMajor_val_three]
    show ((0 * 8 + c.val) * 1024 + r.val) * 128 + d.val = (c.val * 1024 + r.val) * 128 + d.val
    omega)

/-- A [1024, 128] array viewed as [1, 1024, 128]. -/
theorem add_unit {α : Type} (v : S1024x128.Idx → α) (h : S1024x128.ShapeCasts S1x1024x128) (r : Fin 1024) (d : Fin 128) :
    shapeCast S1x1024x128 v h (ix3 (0 : Fin 1) r d) = v (ix2 r d) :=
  shapeCast_apply v h (ix3 (0 : Fin 1) r d) (ix2 r d) (by
    rw [Shape.rowMajor_val_two, Shape.rowMajor_val_three]
    show r.val * 128 + d.val = (0 * 1024 + r.val) * 128 + d.val
    omega)

/-- One [1, 1024, 128] array repeated over the 8 channels. -/
theorem over_channels {α : Type} (v : S1x1024x128.Idx → α) (h : S1x1024x128.Broadcasts S8x1024x128) (c : Fin 8) (r : Fin 1024)
    (d : Fin 128) : broadcastTo S8x1024x128 v h (ix3 c r d) = v (ix3 (0 : Fin 1) r d) :=
  broadcastTo_apply v h (ix3 c r d) (ix3 (0 : Fin 1) r d) (fun a => match a with
    | ⟨0, _⟩ => by show 0 = if (1 : Nat) = 1 then 0 else c.val; rw [if_pos rfl]
    | ⟨1, _⟩ => by show r.val = if (1024 : Nat) = 1 then 0 else r.val; rw [if_neg (by decide)]
    | ⟨2, _⟩ => by show d.val = if (128 : Nat) = 1 then 0 else d.val; rw [if_neg (by decide)])

/-- A [1024, 1] column repeated along the 128 lanes. -/
theorem along_lanes {α : Type} (v : S1024x1.Idx → α) (h : S1024x1.Broadcasts S1024x128) (r : Fin 1024) (d : Fin 128) :
    broadcastTo S1024x128 v h (ix2 r d) = v (ix2 r (0 : Fin 1)) :=
  broadcastTo_apply v h (ix2 r d) (ix2 r (0 : Fin 1)) (fun a => match a with
    | ⟨0, _⟩ => by show r.val = if (1024 : Nat) = 1 then 0 else r.val; rw [if_neg (by decide)]
    | ⟨1, _⟩ => by show 0 = if (1 : Nat) = 1 then 0 else d.val; rw [if_pos rfl])

/-- A comparison of integer arrays at an index compares the entries. -/
theorem cmpi_at {s : Shape} {w : Nat} (p : CmpIPredicate) (x y : IVec s w) (i : s.Idx) :
    cmpi p x y i = IntOp.cmpi p (x i) (y i) := rfl

/-! ## The body's payload at an index -/

/-- What the body stores at channel c and staged row r: the lane sum of row (c, r) of the staged cost-volume block, each
    lane d weighted by [d = k] * a + [d = k'] * b, with k, k', a, b the entries of the four staged columns at row r. -/
theorem pay_apply (v0 : S1x8x1024x128.Idx → EReal) (v3 v5 : S1024x1.Idx → BitVec 32) (v7 v9 : S1024x1.Idx → EReal)
    (c : Fin 8) (r : Fin 1024) :
    k0_pay1 (F := Ideal) v0 v3 v5 v7 v9 (ix2 c r)
      = ∑ d : Fin 128, v0 (ix4 (0 : Fin 1) c r d)
          * ((if BitVec.ofNat 32 d.val = v3 (ix2 r (0 : Fin 1)) then v7 (ix2 r (0 : Fin 1)) else 0)
            + (if BitVec.ofNat 32 d.val = v5 (ix2 r (0 : Fin 1)) then v9 (ix2 r (0 : Fin 1)) else 0)) := by
  unfold k0_pay1
  dsimp only
  refine (lane_sum _ _ _ _ c r).trans ?_
  refine Finset.sum_congr rfl fun d _ => ?_
  simp only [ValueIdx.mulf_apply, ValueIdx.addf_apply, ValueIdx.select_apply, ValueIdx.broadcast_apply, cmpi_at,
    drop_unit, over_channels, add_unit, along_lanes, shapeCast_self, Cert.Taps.select_eq,
    Ideal.ofBits_def, Ideal.ofBits_zero_f32]
  have hi : iota Kind.tc S1024x128 32 [1] iota_S1024x128_d1_w32 (ix2 r d) = BitVec.ofNat 32 d.val :=
    iota_single_apply Kind.tc S1024x128 32 (1 : Fin S1024x128.rank) iota_S1024x128_d1_w32 (ix2 r d)
  rw [hi]

/-! ## The array the region writes, as one function of the arrays it reads -/

/-- The payload at any index of the [8, 1024] block whose coordinates are c and r. -/
theorem pay_at (v0 : S1x8x1024x128.Idx → EReal) (v3 v5 : S1024x1.Idx → BitVec 32) (v7 v9 : S1024x1.Idx → EReal)
    (y : S8x1024.Idx) (c : Fin 8) (r : Fin 1024) (hc : (y 0).val = c.val) (hr : (y 1).val = r.val) :
    k0_pay1 (F := Ideal) v0 v3 v5 v7 v9 y
      = ∑ d : Fin 128, v0 (ix4 (0 : Fin 1) c r d)
          * ((if BitVec.ofNat 32 d.val = v3 (ix2 r (0 : Fin 1)) then v7 (ix2 r (0 : Fin 1)) else 0)
            + (if BitVec.ofNat 32 d.val = v5 (ix2 r (0 : Fin 1)) then v9 (ix2 r (0 : Fin 1)) else 0)) := by
  have e : y = ix2 c r := by
    funext a
    match a with
    | ⟨0, _⟩ => exact Fin.ext hc
    | ⟨1, _⟩ => exact Fin.ext hr
  rw [e]
  exact pay_apply v0 v3 v5 v7 v9 c r

/-- Channel c, row p of the [8, 131072] result from the five arrays the region reads: the lane sum of row (c, p) of the
    cost volume, lane d weighted by [d = k] * a + [d = k'] * b with k, k', a, b the entries of the four columns at row p. -/
def rowsAt (A0 : S1x8x131072x128.Idx → EReal) (A1 A2 : S131072x1.Idx → BitVec 32) (A3 A4 : S131072x1.Idx → EReal)
    (c : Fin 8) (p : Fin 131072) : EReal :=
  ∑ d : Fin 128, A0 (ix4 (0 : Fin 1) c p d)
    * ((if BitVec.ofNat 32 d.val = A1 (ix2 p (0 : Fin 1)) then A3 (ix2 p (0 : Fin 1)) else 0)
      + (if BitVec.ofNat 32 d.val = A2 (ix2 p (0 : Fin 1)) then A4 (ix2 p (0 : Fin 1)) else 0))

/-- The whole [8, 131072] array. -/
def rows (A0 : S1x8x131072x128.Idx → EReal) (A1 A2 : S131072x1.Idx → BitVec 32) (A3 A4 : S131072x1.Idx → EReal) :
    S8x131072.Idx → EReal := fun i => rowsAt A0 A1 A2 A3 A4 (i 0) (i 1)

/-- The rows array at any index whose coordinates are c and p. -/
theorem rows_at (A0 : S1x8x131072x128.Idx → EReal) (A1 A2 : S131072x1.Idx → BitVec 32) (A3 A4 : S131072x1.Idx → EReal)
    (i : S8x131072.Idx) (c : Fin 8) (p : Fin 131072) (hc : (i 0).val = c.val) (hp : (i 1).val = p.val) :
    rows A0 A1 A2 A3 A4 i = rowsAt A0 A1 A2 A3 A4 c p := by
  show rowsAt A0 A1 A2 A3 A4 (i 0) (i 1) = _
  rw [show (i 0 : Fin 8) = c from Fin.ext hc, show (i 1 : Fin 131072) = p from Fin.ext hp]

variable (m : (ℓ : Loc nD τ sig) → Buf (Elt Ideal) ℓ) (ρ : Dev nD → PrngReg)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The printed index maps, decided over the grid: at point t every window is at block t of its row axis and at block 0
    of every other axis. -/
theorem idx_facts : ∀ t : Fin cfg0.N,
    win0_0.index t (0 : Fin 4) = 0 ∧ win0_0.index t (1 : Fin 4) = 0 ∧ win0_0.index t (2 : Fin 4) = t.val ∧ win0_0.index t (3 : Fin 4) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = t.val :=
  (by decide +kernel : ∀ t : Fin grid0.N, _)

/-- The cost-volume block staged at point t is rows 1024 t .. 1024 t + 1023 of the array. -/
theorem blk0_apply (c : Dev nD) (t : Fin cfg0.N) (ch : Fin 8) (r : Fin 1024) (d : Fin 128) (p : Fin 131072)
    (hp : p.val = t.val * 1024 + r.val) :
    (iblk m c 0 t : S1x8x1024x128.Idx → EReal) (ix4 (0 : Fin 1) ch r d)
      = (V m c main_arg0 : S1x8x131072x128.Idx → EReal) (ix4 (0 : Fin 1) ch p d) := by
  obtain ⟨e00, e01, e02, e03, -⟩ := idx_facts t
  unfold iblk
  rw [View.read_apply]
  show V m c main_arg0 _ = V m c main_arg0 _
  congr 1
  funext a
  apply Fin.ext
  match a with
  | ⟨0, _⟩ => show win0_0.index t (0 : Fin 4) * 1 + 1 * 0 = 0; rw [e00]
  | ⟨1, _⟩ => show win0_0.index t (1 : Fin 4) * 8 + 1 * ch.val = ch.val; rw [e01]; omega
  | ⟨2, _⟩ => show win0_0.index t (2 : Fin 4) * 1024 + 1 * r.val = p.val; rw [e02, hp]; omega
  | ⟨3, _⟩ => show win0_0.index t (3 : Fin 4) * 128 + 1 * d.val = d.val; rw [e03]; omega

/-- The lower-lane column staged at point t is rows 1024 t .. 1024 t + 1023 of its array. -/
theorem blk1_apply (c : Dev nD) (t : Fin cfg0.N) (r : Fin 1024) (p : Fin 131072) (hp : p.val = t.val * 1024 + r.val) :
    (iblk m c 1 t : S1024x1.Idx → BitVec 32) (ix2 r (0 : Fin 1))
      = (V m c main_v10 : S131072x1.Idx → BitVec 32) (ix2 p (0 : Fin 1)) := by
  obtain ⟨-, -, -, -, e10, e11, -⟩ := idx_facts t
  unfold iblk
  rw [View.read_apply]
  show V m c main_v10 _ = V m c main_v10 _
  congr 1
  funext a
  apply Fin.ext
  match a with
  | ⟨0, _⟩ => show win0_1.index t (0 : Fin 2) * 1024 + 1 * r.val = p.val; rw [e10, hp]; omega
  | ⟨1, _⟩ => show win0_1.index t (1 : Fin 2) * 1 + 1 * 0 = 0; rw [e11]

/-- The upper-lane column, the same way. -/
theorem blk2_apply (c : Dev nD) (t : Fin cfg0.N) (r : Fin 1024) (p : Fin 131072) (hp : p.val = t.val * 1024 + r.val) :
    (iblk m c 2 t : S1024x1.Idx → BitVec 32) (ix2 r (0 : Fin 1))
      = (V m c main_v11 : S131072x1.Idx → BitVec 32) (ix2 p (0 : Fin 1)) := by
  obtain ⟨-, -, -, -, -, -, e20, e21, -⟩ := idx_facts t
  unfold iblk
  rw [View.read_apply]
  show V m c main_v11 _ = V m c main_v11 _
  congr 1
  funext a
  apply Fin.ext
  match a with
  | ⟨0, _⟩ => show win0_2.index t (0 : Fin 2) * 1024 + 1 * r.val = p.val; rw [e20, hp]; omega
  | ⟨1, _⟩ => show win0_2.index t (1 : Fin 2) * 1 + 1 * 0 = 0; rw [e21]

/-- The lower-weight column, the same way. -/
theorem blk3_apply (c : Dev nD) (t : Fin cfg0.N) (r : Fin 1024) (p : Fin 131072) (hp : p.val = t.val * 1024 + r.val) :
    (iblk m c 3 t : S1024x1.Idx → EReal) (ix2 r (0 : Fin 1))
      = (V m c main_v12 : S131072x1.Idx → EReal) (ix2 p (0 : Fin 1)) := by
  obtain ⟨-, -, -, -, -, -, -, -, e30, e31, -⟩ := idx_facts t
  unfold iblk
  rw [View.read_apply]
  show V m c main_v12 _ = V m c main_v12 _
  congr 1
  funext a
  apply Fin.ext
  match a with
  | ⟨0, _⟩ => show win0_3.index t (0 : Fin 2) * 1024 + 1 * r.val = p.val; rw [e30, hp]; omega
  | ⟨1, _⟩ => show win0_3.index t (1 : Fin 2) * 1 + 1 * 0 = 0; rw [e31]

/-- The upper-weight column, the same way. -/
theorem blk4_apply (c : Dev nD) (t : Fin cfg0.N) (r : Fin 1024) (p : Fin 131072) (hp : p.val = t.val * 1024 + r.val) :
    (iblk m c 4 t : S1024x1.Idx → EReal) (ix2 r (0 : Fin 1))
      = (V m c main_v13 : S131072x1.Idx → EReal) (ix2 p (0 : Fin 1)) := by
  obtain ⟨-, -, -, -, -, -, -, -, -, -, e40, e41, -⟩ := idx_facts t
  unfold iblk
  rw [View.read_apply]
  show V m c main_v13 _ = V m c main_v13 _
  congr 1
  funext a
  apply Fin.ext
  match a with
  | ⟨0, _⟩ => show win0_4.index t (0 : Fin 2) * 1024 + 1 * r.val = p.val; rw [e40, hp]; omega
  | ⟨1, _⟩ => show win0_4.index t (1 : Fin 2) * 1 + 1 * 0 = 0; rw [e41]

/-- What grid point t writes back is block t of the rows array of the five arrays as the region finds them. -/
theorem flushed_eq (c : Dev nD) (t : Fin cfg0.N) :
    (dats m 0 c).flushed 5 t = ((cfg0.win 5).blk t).view.read (Elt Ideal)
      (rows (V m c main_arg0) (V m c main_v10) (V m c main_v11) (V m c main_v12) (V m c main_v13)) := by
  show (cfg0.win 5).cut (grid0.coords t) ((dats m 0 c).after 5 t) = _
  rw [after0_5]
  unfold out0_5
  rw [View.canon_unit_zero hz2]
  simp only [View.ld_unit_zero (S := S1x8x1024x128) hz4, View.ld_unit_zero (S := S1024x1) hz2]
  funext j
  have hj0 : (j 0).val < 8 := (j 0).isLt
  have hj1 : (j 1).val < 1024 := (j 1).isLt
  have ht : t.val < 128 := by have h := t.isLt; have e : cfg0.N = 128 := N_0; omega
  obtain ⟨-, -, -, -, -, -, -, -, -, -, -, -, e50, e51⟩ := idx_facts t
  rw [View.read_apply]
  show k0_pay1 (F := Ideal) (iblk m c 0 t) (iblk m c 1 t) (iblk m c 2 t) (iblk m c 3 t) (iblk m c 4 t) j = _
  refine (pay_at (iblk m c 0 t) (iblk m c 1 t) (iblk m c 2 t) (iblk m c 3 t) (iblk m c 4 t) j
    ⟨(j 0).val, hj0⟩ ⟨(j 1).val, hj1⟩ rfl rfl).trans ?_
  have hp : (⟨t.val * 1024 + (j 1).val, by omega⟩ : Fin 131072).val = t.val * 1024 + (⟨(j 1).val, hj1⟩ : Fin 1024).val := rfl
  refine Eq.symm ((rows_at (V m c main_arg0) (V m c main_v10) (V m c main_v11) (V m c main_v12) (V m c main_v13) _
    ⟨(j 0).val, hj0⟩ ⟨t.val * 1024 + (j 1).val, by omega⟩ ?_ ?_).trans ?_)
  · show win0_5.index t (0 : Fin 2) * 8 + 1 * (j 0).val = (j 0).val
    rw [e50]; omega
  · show win0_5.index t (1 : Fin 2) * 1024 + 1 * (j 1).val = t.val * 1024 + (j 1).val
    rw [e51]; omega
  · unfold rowsAt
    refine Finset.sum_congr rfl fun d _ => ?_
    rw [blk0_apply m c t ⟨(j 0).val, hj0⟩ ⟨(j 1).val, hj1⟩ d _ hp, blk1_apply m c t ⟨(j 1).val, hj1⟩ _ hp,
      blk2_apply m c t ⟨(j 1).val, hj1⟩ _ hp, blk3_apply m c t ⟨(j 1).val, hj1⟩ _ hp, blk4_apply m c t ⟨(j 1).val, hj1⟩ _ hp]

/-! ## The blocks tile the array -/

/-- An index of the [8, 131072] array is in point t's block exactly when each coordinate is in the block's range. -/
theorem mem_blk (t : Fin cfg0.N) (i : S8x131072.Idx) :
    i ∈ ((cfg0.win 5).blk t).view.set
      ↔ ∀ a : Fin 2, win0_5.index t a * S8x1024.size a ≤ (i a).val ∧ (i a).val < win0_5.index t a * S8x1024.size a + S8x1024.size a := by
  show i ∈ ((View.whole main_v14).slice (win0_5.rect t)).set ↔ _
  rw [View.set_slice_whole, Rect.mem_set_unit]
  exact Iff.rfl

/-- Row p of the array is written back by point p / 1024. -/
theorem covered (i : S8x131072.Idx) :
    ∃ t : Fin cfg0.N, (cfg0.win 5).flush t = true ∧ i ∈ ((cfg0.win 5).blk t).view.set := by
  have hi0 : (i 0).val < 8 := (i 0).isLt
  have hi1 : (i 1).val < 131072 := (i 1).isLt
  have eN : cfg0.N = 128 := N_0
  refine ⟨⟨(i 1).val / 1024, by omega⟩, flush0_5 _, ?_⟩
  obtain ⟨-, -, -, -, -, -, -, -, -, -, -, -, e50, e51⟩ := idx_facts ⟨(i 1).val / 1024, by omega⟩
  rw [mem_blk]
  intro a
  match a with
  | ⟨0, _⟩ =>
    show win0_5.index _ (0 : Fin 2) * 8 ≤ (i 0).val ∧ (i 0).val < win0_5.index _ (0 : Fin 2) * 8 + 8
    rw [e50]; omega
  | ⟨1, _⟩ =>
    show win0_5.index _ (1 : Fin 2) * 1024 ≤ (i 1).val ∧ (i 1).val < win0_5.index _ (1 : Fin 2) * 1024 + 1024
    rw [e51]
    show (i 1).val / 1024 * 1024 ≤ (i 1).val ∧ (i 1).val < (i 1).val / 1024 * 1024 + 1024
    omega

/-- The result array of the region after the run: the rows array of the five arrays as the region finds them. -/
theorem final (c : Dev nD) : (dats m 0 c).arrAt 5 cfg0.N
    = rows (V m c main_arg0) (V m c main_v10) (V m c main_v11) (V m c main_v12) (V m c main_v13) :=
  (dats m 0 c).arrAt_eq_of_cover 5 _ (fun t _ => flushed_eq m c t) covered

/-! ## The host operations before the region: the four columns, from the flow array -/

/-- The position of every pixel, [1, 256, 512]: the flow entries times 127/128. -/
def posArr (fl : S1x256x512x1.Idx → EReal) : S1x256x512.Idx → EReal :=
  mulf (F := Ideal) (φ := .f32) (shapeCast S1x256x512 fl shapeCasts_S1x256x512x1_S1x256x512)
    (broadcastInDim S1x256x512 ![] bcast_S_S1x256x512 (constant (F := Ideal) S_ .f32 0x3F7E0000#32))
/-- Its integer part. -/
def baseArr (fl : S1x256x512x1.Idx → EReal) : S1x256x512.Idx → EReal := Host.floor (F := Ideal) (φ := .f32) (posArr fl)
/-- Its fractional part. -/
def fracArr (fl : S1x256x512x1.Idx → EReal) : S1x256x512.Idx → EReal := subf (F := Ideal) (φ := .f32) (posArr fl) (baseArr fl)
/-- The lower lane's number. -/
def laneArr (fl : S1x256x512x1.Idx → EReal) : S1x256x512.Idx → BitVec 32 := fptosi (F := Ideal) (φ := .f32) 32 (baseArr fl)
/-- The upper lane's number. -/
def lane1Arr (fl : S1x256x512x1.Idx → EReal) : S1x256x512.Idx → BitVec 32 :=
  addi (laneArr fl) (broadcastInDim S1x256x512 ![] bcast_S_S1x256x512 (constantI S_ 32 1#32))
/-- The lower lane's weight. -/
def lowWArr (fl : S1x256x512x1.Idx → EReal) : S1x256x512.Idx → EReal :=
  subf (F := Ideal) (φ := .f32) (broadcastInDim S1x256x512 ![] bcast_S_S1x256x512 (constant (F := Ideal) S_ .f32 0x3F800000#32)) (fracArr fl)

/-- The flow array [1, 256, 512, 1] viewed as [1, 256, 512]. -/
theorem flow_view {α : Type} (fl : S1x256x512x1.Idx → α) (hc : S1x256x512x1.ShapeCasts S1x256x512) (h : Fin 256) (w : Fin 512) :
    shapeCast S1x256x512 fl hc (ix3 (0 : Fin 1) h w) = fl (ix4 (0 : Fin 1) h w (0 : Fin 1)) :=
  shapeCast_apply fl hc (ix3 (0 : Fin 1) h w) (ix4 (0 : Fin 1) h w (0 : Fin 1)) (by
    rw [Shape.rowMajor_val_four, Shape.rowMajor_val_three]
    show ((0 * 256 + h.val) * 512 + w.val) * 1 + 0 = (0 * 256 + h.val) * 512 + w.val
    omega)

/-- A [1, 256, 512] array viewed as a column [131072, 1]: pixel (h, w) is row 512 h + w. -/
theorem as_column {α : Type} (v : S1x256x512.Idx → α) (hc : S1x256x512.ShapeCasts S131072x1) (h : Fin 256) (w : Fin 512)
    (p : Fin 131072) (hp : p.val = h.val * 512 + w.val) :
    shapeCast S131072x1 v hc (ix2 p (0 : Fin 1)) = v (ix3 (0 : Fin 1) h w) :=
  shapeCast_apply v hc (ix2 p (0 : Fin 1)) (ix3 (0 : Fin 1) h w) (by
    rw [Shape.rowMajor_val_three, Shape.rowMajor_val_two]
    show (0 * 256 + h.val) * 512 + w.val = p.val * 1 + 0
    omega)

/-- A scalar broadcast over the pixels reads the scalar. -/
theorem splat_apply {α : Type} (x : S_.Idx → α) (hb : S_.BroadcastsInDim S1x256x512 (![] : Fin 0 → Fin S1x256x512.rank))
    (i : S1x256x512.Idx) : broadcastInDim S1x256x512 ![] hb x i = x ix0 :=
  broadcastInDim_apply _ hb x i ix0 (fun a => a.elim0)

theorem posArr_apply (fl : S1x256x512x1.Idx → EReal) (h : Fin 256) (w : Fin 512) :
    posArr fl (ix3 (0 : Fin 1) h w) = Cert.Taps.coord (F := Ideal) (fl (ix4 (0 : Fin 1) h w (0 : Fin 1))) := by
  unfold posArr
  rw [ValueIdx.mulf_apply, flow_view, splat_apply]
  rfl
theorem baseArr_apply (fl : S1x256x512x1.Idx → EReal) (h : Fin 256) (w : Fin 512) :
    baseArr fl (ix3 (0 : Fin 1) h w) = Cert.Taps.base (F := Ideal) (fl (ix4 (0 : Fin 1) h w (0 : Fin 1))) := by
  show FloatOps.hostUnary (F := Ideal) .floor (posArr fl (ix3 (0 : Fin 1) h w)) = _
  rw [posArr_apply]; rfl
theorem fracArr_apply (fl : S1x256x512x1.Idx → EReal) (h : Fin 256) (w : Fin 512) :
    fracArr fl (ix3 (0 : Fin 1) h w) = Cert.Taps.frac (F := Ideal) (fl (ix4 (0 : Fin 1) h w (0 : Fin 1))) := by
  show FloatOps.subf (F := Ideal) (posArr fl (ix3 (0 : Fin 1) h w)) (baseArr fl (ix3 (0 : Fin 1) h w)) = _
  rw [posArr_apply, baseArr_apply]; rfl
theorem laneArr_apply (fl : S1x256x512x1.Idx → EReal) (h : Fin 256) (w : Fin 512) :
    laneArr fl (ix3 (0 : Fin 1) h w) = Cert.Taps.lowLane (F := Ideal) (fl (ix4 (0 : Fin 1) h w (0 : Fin 1))) := by
  show FloatOps.fptosi (F := Ideal) 32 (baseArr fl (ix3 (0 : Fin 1) h w)) = _
  rw [baseArr_apply]; rfl
theorem lane1Arr_apply (fl : S1x256x512x1.Idx → EReal) (h : Fin 256) (w : Fin 512) :
    lane1Arr fl (ix3 (0 : Fin 1) h w) = Cert.Taps.lowLane (F := Ideal) (fl (ix4 (0 : Fin 1) h w (0 : Fin 1))) + 1#32 := by
  show IntOp.addi (laneArr fl (ix3 (0 : Fin 1) h w)) (broadcastInDim S1x256x512 ![] bcast_S_S1x256x512 (constantI S_ 32 1#32) (ix3 (0 : Fin 1) h w)) = _
  rw [laneArr_apply, splat_apply]; rfl
theorem lowWArr_apply (fl : S1x256x512x1.Idx → EReal) (h : Fin 256) (w : Fin 512) :
    lowWArr fl (ix3 (0 : Fin 1) h w) = Cert.Taps.lowWeight (F := Ideal) (fl (ix4 (0 : Fin 1) h w (0 : Fin 1))) := by
  show FloatOps.subf (F := Ideal) (broadcastInDim S1x256x512 ![] bcast_S_S1x256x512 (constant (F := Ideal) S_ .f32 0x3F800000#32) (ix3 (0 : Fin 1) h w)) (fracArr fl (ix3 (0 : Fin 1) h w)) = _
  rw [fracArr_apply, splat_apply]; rfl

/-- The four columns as the region finds them: the prefix arrays viewed as columns. -/
theorem V_v10 (c : Dev nD) : (V m c main_v10 : S131072x1.Idx → BitVec 32)
    = shapeCast S131072x1 (laneArr (m ((c : Thread nD τ).loc main_arg1))) shapeCasts_S1x256x512_S131072x1 := by
  show StableHlo.after hostOps0 (fun b => m (c, b)) (Proc.devRef .tc main_v10) = _
  after_results
  rfl
theorem V_v11 (c : Dev nD) : (V m c main_v11 : S131072x1.Idx → BitVec 32)
    = shapeCast S131072x1 (lane1Arr (m ((c : Thread nD τ).loc main_arg1))) shapeCasts_S1x256x512_S131072x1 := by
  show StableHlo.after hostOps0 (fun b => m (c, b)) (Proc.devRef .tc main_v11) = _
  after_results
  rfl
theorem V_v12 (c : Dev nD) : (V m c main_v12 : S131072x1.Idx → EReal)
    = shapeCast S131072x1 (lowWArr (m ((c : Thread nD τ).loc main_arg1))) shapeCasts_S1x256x512_S131072x1 := by
  show StableHlo.after hostOps0 (fun b => m (c, b)) (Proc.devRef .tc main_v12) = _
  after_results
  rfl
theorem V_v13 (c : Dev nD) : (V m c main_v13 : S131072x1.Idx → EReal)
    = shapeCast S131072x1 (fracArr (m ((c : Thread nD τ).loc main_arg1))) shapeCasts_S1x256x512_S131072x1 := by
  show StableHlo.after hostOps0 (fun b => m (c, b)) (Proc.devRef .tc main_v13) = _
  after_results
  rfl

/-! ## The host operation after the region, and the run -/

/-- The [8, 131072] array viewed as [1, 8, 256, 512]: channel c, pixel (h, w) is row 512 h + w of channel c. -/
theorem as_image {α : Type} (v : S8x131072.Idx → α) (hc : S8x131072.ShapeCasts S1x8x256x512) (z : Fin 1) (ch : Fin 8) (h : Fin 256)
    (w : Fin 512) (p : Fin 131072) (hp : p.val = h.val * 512 + w.val) :
    shapeCast S1x8x256x512 v hc (ix4 z ch h w) = v (ix2 ch p) :=
  shapeCast_apply v hc (ix4 z ch h w) (ix2 ch p) (by
    rw [Shape.rowMajor_val_two, Shape.rowMajor_val_four]
    show ch.val * 131072 + p.val = ((z.val * 8 + ch.val) * 256 + h.val) * 512 + w.val
    have hz := z.isLt
    omega)

/-- The rows array of the five arrays as the region finds them, viewed as the image, is the sampled array of the two
    arguments: the cost volume is found as launched, and the four columns are the lower lane, the upper lane, the lower
    weight and the fraction of each pixel's flow entry. -/
theorem image_eq (c : Dev nD) :
    shapeCast S1x8x256x512 (rows (V m c main_arg0) (V m c main_v10) (V m c main_v11) (V m c main_v12) (V m c main_v13))
        shapeCasts_S8x131072_S1x8x256x512
      = Cert.Taps.result (m ((c : Thread nD τ).loc main_arg0)) (m ((c : Thread nD τ).loc main_arg1)) := by
  funext i
  obtain ⟨z, ch, h, w, rfl⟩ : ∃ (z : Fin 1) (ch : Fin 8) (h : Fin 256) (w : Fin 512), i = ix4 z ch h w :=
    ⟨i 0, i 1, i 2, i 3, eq_ix4 i⟩
  have hlt : h.val * 512 + w.val < 131072 := by have := h.isLt; have := w.isLt; omega
  have hp : (⟨h.val * 512 + w.val, hlt⟩ : Fin 131072).val = h.val * 512 + w.val := rfl
  rw [as_image _ _ z ch h w ⟨h.val * 512 + w.val, hlt⟩ hp, rows_at _ _ _ _ _ _ ch ⟨h.val * 512 + w.val, hlt⟩ rfl rfl]
  show _ = Cert.Taps.resultAt _ _ ch h w
  unfold rowsAt Cert.Taps.resultAt Cert.Taps.sample
  rw [V_main_arg0, V_v10, V_v11, V_v12, V_v13]
  simp only [as_column _ _ h w ⟨h.val * 512 + w.val, hlt⟩ hp, laneArr_apply, lane1Arr_apply, lowWArr_apply, fracArr_apply]

/-- What the last host operation leaves in the result buffer: the region's result array viewed as the image. -/
theorem out_eq (c : Dev nD) :
    Pipeline.afterTail₀ cfgs (dats m) 0 (V0 m) [hostOps1] c main_v15
      = Cert.Taps.result (m ((c : Thread nD τ).loc main_arg0)) (m ((c : Thread nD τ).loc main_arg1)) := by
  unfold Pipeline.afterTail₀
  show StableHlo.after hostOps1 _ (Proc.devRef .tc main_v15) = _
  after_results
  have e : Pipeline.withArrays (cfgs 0).spec c (V0 m c) (fun w => (dats m 0 c).arrAt w (cfgs 0).N) (Proc.devRef .tc main_v14)
      = rows (V m c main_arg0) (V m c main_v10) (V m c main_v11) (V m c main_v12) (V m c main_v13) :=
    (Pipeline.withArrays_arr spec0 launch0.win.arr_inj c (V0 m c) (fun w => (dats m 0 c).arrAt w (cfgs 0).N) 5).trans (final m c)
  rw [e]
  exact image_eq m c

/-- The kernel's run at the ideal instance: the result array ends at the sampled array of the two arguments as
    launched, and the arguments end unchanged. -/
theorem run : θ_run (defs (F := Ideal)) (onTc (τ := τ) (main (F := Ideal))) ⟨m, fun _ => 0, ρ⟩ fun r => ∀ c : Dev nD,
      r.2.mem ((c.tc : Thread nD τ).loc main_v15)
        = Cert.Taps.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v15 (Pipeline.mem_restRefs_of main_v15 (by decide) (by decide))).trans (out_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelSample

end
-- ==== Proof.lean ====
/-
  A one-dimensional bilinear sampler. For each of 8 channels and each of 131072 pixels, a row of 128 lanes of the
  cost volume is sampled at the position x = flow * 127/128 the pixel's flow entry names: lanes k = floor x and k + 1
  with weights 1 - t and t, t = x - floor x, a lane outside 0 .. 127 contributing nothing.

  The kernel takes the lane sum of the row weighted by [d = k] * (1 - t) + [d = k + 1] * t; the reference gathers the
  two lanes at the clipped lane numbers and masks each weight by its lane's range test. Both compute k, t and 1 - t
  from the flow entry by the same operations, and the two forms agree on all extended reals (Proof/Taps.lean), so the
  precondition is never opened. The idealization rewrote nothing, so the preserves claim is trivial.
-/
import proofs.«143381_j91225105367329_1_alg».proof.Defs
import proofs.«143381_j91225105367329_1_alg».proof.Proof.Gen.Kernel
import proofs.«143381_j91225105367329_1_alg».proof.Proof.Gen.Kernel.Frame
import proofs.«143381_j91225105367329_1_alg».proof.Proof.Gen.KernelIdeal
import proofs.«143381_j91225105367329_1_alg».proof.Proof.Gen.KernelIdeal.Frame
import proofs.«143381_j91225105367329_1_alg».proof.Proof.Gen.ReferenceIdeal
import proofs.«143381_j91225105367329_1_alg».proof.Proof.RefRun
import proofs.«143381_j91225105367329_1_alg».proof.Proof.RefRead
import proofs.«143381_j91225105367329_1_alg».proof.Proof.Gen.Pre_finite_inputs
import proofs.«143381_j91225105367329_1_alg».proof.Proof.Taps
import proofs.«143381_j91225105367329_1_alg».proof.Proof.RefValue
import proofs.«143381_j91225105367329_1_alg».proof.Proof.KernelValue

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories agreeing on the two arguments, end with the sampled array of those arguments. -/
theorem algebraic : Cert.algebraic_KernelIdeal_ReferenceIdeal := by
  intro m ρ m' ρ' _ hagree
  refine ⟨fun c => Cert.Taps.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelSample.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.RefSample.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
